-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S50000x128 : Shape := ⟨2, ![50000, 128]⟩
abbrev S200000x16 : Shape := ⟨2, ![200000, 16]⟩
abbrev S1024x16 : Shape := ⟨2, ![1024, 16]⟩
abbrev S1024 : Shape := ⟨1, ![1024]⟩
abbrev S32x128 : Shape := ⟨2, ![32, 128]⟩
abbrev S32x32 : Shape := ⟨2, ![32, 32]⟩
abbrev S200000 : Shape := ⟨1, ![200000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S200000x16 : S_.BroadcastsInDim S200000x16 (![] : Fin 0 → Fin S200000x16.rank)
  reducesTo_S200000x16_S_d0_1 : S200000x16.ReducesTo [0, 1] S_
  bcast_S_S1024x16 : S_.BroadcastsInDim S1024x16 (![] : Fin 0 → Fin S1024x16.rank)
  reducesTo_S1024x16_S_d0_1 : S1024x16.ReducesTo [0, 1] S_
  bcast_S_S1024 : S_.BroadcastsInDim S1024 (![] : Fin 0 → Fin S1024.rank)
  reducesTo_S1024_S_d0 : S1024.ReducesTo [0] S_
  bcast_S_S32x128 : S_.BroadcastsInDim S32x128 (![] : Fin 0 → Fin S32x128.rank)
  reducesTo_S32x128_S_d0_1 : S32x128.ReducesTo [0, 1] S_
  bcast_S_S32x32 : S_.BroadcastsInDim S32x32 (![] : Fin 0 → Fin S32x32.rank)
  reducesTo_S32x32_S_d0_1 : S32x32.ReducesTo [0, 1] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg7 : IVec S200000 32) (main_v33 : IVec S_ 1) : IVec S_ 1 :=
  let main_c_12 : IVec S_ 32 := constantI S_ 32 0#32
  let main_v34 : IVec S200000 32 := broadcastInDim S200000 ![] bcast_S_S200000 main_c_12
  let main_v35 : IVec S200000 1 := cmpi .sge main_arg7 main_v34
  let main_c_13 : IVec S_ 32 := constantI S_ 32 50000#32
  let main_v36 : IVec S200000 32 := broadcastInDim S200000 ![] bcast_S_S200000 main_c_13
  let main_v37 : IVec S200000 1 := cmpi .slt main_arg7 main_v36
  let main_v38 : IVec S200000 1 := andi main_v35 main_v37
  let main_c_14 : IVec S_ 1 := constantI S_ 1 1#1
  let main_v39 : IVec S_ 1 := (fun x v => Host.reduce IntOp.andi x v reducesTo_S200000_S_d0 h_S_) main_v38 main_c_14
  let main_v40 : IVec S_ 1 := andi main_v33 main_v39
  main_v40

def fn_part1 {F : FTy → Type} [FloatOps F] (main_arg4 : FVec F S1024 .f32) (main_arg5 : FVec F S32x128 .f32) (main_arg6 : FVec F S32x32 .f32) (main_arg7 : IVec S200000 32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S50000x32 .f32) (main_arg1 : FVec F S50000x128 .f32) (main_arg2 : FVec F S200000x16 .f32) (main_arg3 : FVec F S1024x16 .f32) (main_arg4 : FVec F S1024 .f32) (main_arg5 : FVec F S32x128 .f32) (main_arg6 : FVec F S32x32 .f32) (main_arg7 : IVec S200000 32) (main_arg8 : IVec S200000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S200000x16 .f32 := Host.absf main_arg2
  let main_cst_2 : FVec F S_ .f32 := constant S_ .f32 0x7F800000#32
  let main_v10 : FVec F S200000x16 .f32 := broadcastInDim S200000x16 ![] bcast_S_S200000x16 main_cst_2
  let main_v11 : IVec S200000x16 1 := cmpf .olt main_v9 main_v10
  let main_c_3 : IVec S_ 1 := constantI S_ 1 1#1
  let main_v12 : IVec S_ 1 := (fun x v => Host.reduce IntOp.andi x v reducesTo_S200000x16_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_v13 main_v16
-- ==== Kernel.lean ====
abbrev S50000x32 : Shape := ⟨2, ![50000, 32]⟩
abbrev S50000x128 : Shape := ⟨2, ![50000, 128]⟩
abbrev S200000x16 : Shape := ⟨2, ![200000, 16]⟩
abbrev S1024x16 : Shape := ⟨2, ![1024, 16]⟩
abbrev S1024 : Shape := ⟨1, ![1024]⟩
abbrev S32x128 : Shape := ⟨2, ![32, 128]⟩
abbrev S32x32 : Shape := ⟨2, ![32, 32]⟩
abbrev S200000 : Shape := ⟨1, ![200000]⟩
abbrev S32x32x16 : Shape := ⟨3, ![32, 32, 16]⟩
abbrev S_ : Shape := ⟨0, ![]⟩
abbrev S32x16 : Shape := ⟨2, ![32, 16]⟩
abbrev S32 : Shape := ⟨1, ![32]⟩
abbrev S1x32 : Shape := ⟨2, ![1, 32]⟩
abbrev S200000x32 : Shape := ⟨2, ![200000, 32]⟩
abbrev S8000x16 : Shape := ⟨2, ![8000, 16]⟩
abbrev S8000x32 : Shape := ⟨2, ![8000, 32]⟩
abbrev S200000x1 : Shape := ⟨2, ![200000, 1]⟩
abbrev S1 : Shape := ⟨1, ![1]⟩
abbrev S1x1 : Shape := ⟨2, ![1, 1]⟩
abbrev S50000 : Shape := ⟨1, ![50000]⟩
abbrev S50000x1 : Shape := ⟨2, ![50000, 1]⟩
abbrev S5000x128 : Shape := ⟨2, ![5000, 128]⟩
abbrev S5000x32 : Shape := ⟨2, ![5000, 32]⟩

abbrev nBuf : Space → Nat
  | .hbm => 58
  | .vmem => 14
  | .smem => 0
  | _ => 0

abbrev bufTy : (tb : Table) → Fin (tcTables nBuf tb) → BufTy
  | .hbm, ⟨0, _⟩ => ⟨S50000x32, .f32⟩
  | .hbm, ⟨1, _⟩ => ⟨S50000x128, .f32⟩
  | .hbm, ⟨2, _⟩ => ⟨S200000x16, .f32⟩
  | .hbm, ⟨3, _⟩ => ⟨S1024x16, .f32⟩
  | .hbm, ⟨4, _⟩ => ⟨S1024, .f32⟩
  | .hbm, ⟨5, _⟩ => ⟨S32x128, .f32⟩
  | .hbm, ⟨6, _⟩ => ⟨S32x32, .f32⟩
  | .hbm, ⟨7, _⟩ => ⟨S200000, .i32⟩
  | .hbm, ⟨8, _⟩ => ⟨S200000, .i32⟩
  | .hbm, ⟨9, _⟩ => ⟨S32x32x16, .f32⟩
  | .hbm, ⟨10, _⟩ => ⟨S_, .f32⟩
  | .hbm, ⟨11, _⟩ => ⟨S32x16, .f32⟩
  | .hbm, ⟨12, _⟩ => ⟨S32x32, .f32⟩
  | .hbm, ⟨13, _⟩ => ⟨S_, .f32⟩
  | .hbm, ⟨14, _⟩ => ⟨S32, .f32⟩
  | .hbm, ⟨15, _⟩ => ⟨S1x32, .f32⟩
  | .hbm, ⟨16, _⟩ => ⟨S200000x32, .f32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S1, .i32⟩
  | .hbm, ⟨26, _⟩ => ⟨S_, .i32⟩
  | .hbm, ⟨27, _⟩ => ⟨S200000x1, .i32⟩
  | .hbm, ⟨28, _⟩ => ⟨S200000x1, .i1⟩
  | .hbm, ⟨29, _⟩ => ⟨S1x1, .i32⟩
  | .hbm, ⟨30, _⟩ => ⟨S200000x1, .i32⟩
  | .hbm, ⟨31, _⟩ => ⟨S200000x1, .i1⟩
  | .hbm, ⟨32, _⟩ => ⟨S200000x1, .i1⟩
  | .hbm, ⟨33, _⟩ => ⟨S_, .i1⟩
  | .hbm, ⟨34, _⟩ => ⟨S200000, .i1⟩
  | .hbm, ⟨35, _⟩ => ⟨S200000x32, .f32⟩
  | .hbm, ⟨36, _⟩ => ⟨S200000x32, .i1⟩
  | .hbm, ⟨37, _⟩ => ⟨S_, .f32⟩
  | .hbm, ⟨38, _⟩ => ⟨S200000x32, .f32⟩
  | .hbm, ⟨39, _⟩ => ⟨S200000x32, .f32⟩
  | .hbm, ⟨40, _⟩ => ⟨S200000x32, .f32⟩
  | .hbm, ⟨41, _⟩ => ⟨S_, .f32⟩
  | .hbm, ⟨42, _⟩ => ⟨S200000, .f32⟩
  | .hbm, ⟨43, _⟩ => ⟨S_, .f32⟩
  | .hbm, ⟨44, _⟩ => ⟨S50000, .f32⟩
  | .hbm, ⟨45, _⟩ => ⟨S200000x1, .i32⟩
  | .hbm, ⟨46, _⟩ => ⟨S50000, .f32⟩
  | .hbm, ⟨47, _⟩ => ⟨S_, .f32⟩
  | .hbm, ⟨48, _⟩ => ⟨S50000x32, .f32⟩
  | .hbm, ⟨49, _⟩ => ⟨S200000x1, .i32⟩
  | .hbm, ⟨50, _⟩ => ⟨S50000x32, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S50000x1, .f32⟩
  | .hbm, ⟨55, _⟩ => ⟨S50000x32, .f32⟩
  | .hbm, ⟨56, _⟩ => ⟨S50000x32, .f32⟩
  | .hbm, ⟨57, _⟩ => ⟨S50000x32, .f32⟩
  | .local _ .vmem, ⟨0, _⟩ => ⟨S8000x16, .f32⟩
  | .local _ .vmem, ⟨1, _⟩ => ⟨S8000x16, .f32⟩
  | .local _ .vmem, ⟨2, _⟩ => ⟨S32x16, .f32⟩
  | .local _ .vmem, ⟨3, _⟩ => ⟨S1x32, .f32⟩
  | .local _ .vmem, ⟨4, _⟩ => ⟨S8000x32, .f32⟩
  | .local _ .vmem, ⟨5, _⟩ => ⟨S8000x32, .f32⟩
  | .local _ .vmem, ⟨6, _⟩ => ⟨S5000x128, .f32⟩
  | .local _ .vmem, ⟨7, _⟩ => ⟨S5000x128, .f32⟩
  | .local _ .vmem, ⟨8, _⟩ => ⟨S5000x32, .f32⟩
  | .local _ .vmem, ⟨9, _⟩ => ⟨S5000x32, .f32⟩
  | .local _ .vmem, ⟨10, _⟩ => ⟨S32x128, .f32⟩
  | .local _ .vmem, ⟨11, _⟩ => ⟨S32x32, .f32⟩
  | .local _ .vmem, ⟨12, _⟩ => ⟨S5000x32, .f32⟩
  | .local _ .vmem, ⟨13, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_cst_2 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_3 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1024x16_S32x32x16 : S1024x16.ShapeCasts S32x32x16
  reducesTo_S32x32x16_S32x16_d0 : S32x32x16.ReducesTo [0] S32x16
  h_S_ : 0 < S_.numel
  shapeCasts_S1024_S32x32 : S1024.ShapeCasts S32x32
  reducesTo_S32x32_S32_d0 : S32x32.ReducesTo [0] S32
  shapeCasts_S32_S1x32 : S32.ShapeCasts S1x32
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x32_0 : S200000.BroadcastsInDim S200000x32 (![0] : Fin 1 → Fin S200000x32.rank)
  bcast_S_S200000x32 : S_.BroadcastsInDim S200000x32 (![] : Fin 0 → Fin S200000x32.rank)
  bcast_S_S50000 : S_.BroadcastsInDim S50000 (![] : Fin 0 → Fin S50000.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  inb_S5000x128_S5000x128_0_0 : ∀ a, (![0, 0] : Fin 2 → Nat) a + S5000x128.size a ≤ S5000x128.size a
  h_S5000x128 : 0 < S5000x128.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x128_S32x128_0_0 : ∀ a, (![0, 0] : Fin 2 → Nat) a + S32x128.size a ≤ S32x128.size a
  h_S32x128 : 0 < S32x128.numel
  inb_S32x32_S32x32_0_0 : ∀ a, (![0, 0] : Fin 2 → Nat) a + S32x32.size a ≤ S32x32.size a
  h_S32x32 : 0 < S32x32.numel
  dot_S8000x16_S32x16_S8000x32_1_1_0_0_n_n_wf : DotDims.WF S8000x16 S32x16 S8000x32 [1] [1] [0] [0] [] []
  gather_S50000x32_S200000x1_S200000x32_1_0_n_n_0_1_132_wf : GatherDims.WF S50000x32 S200000x1 S200000x32 [1] [0] [] [0] [] 1 ![1, 32]
  scatter_S50000_S200000x1_S200000_n_0_0_1_wf : ScatterDims.WF S50000 S200000x1 S200000 [] [0] [0] 1
  scatter_S50000x32_S200000x1_S200000x32_1_0_0_1_wf : ScatterDims.WF S50000x32 S200000x1 S200000x32 [1] [0] [0] 1
  dot_S5000x128_S32x128_S5000x32_1_1_0_0_n_n_wf : DotDims.WF S5000x128 S32x128 S5000x32 [1] [1] [0] [0] [] []
  dot_S5000x32_S32x32_S5000x32_1_1_0_0_n_n_wf : DotDims.WF S5000x32 S32x32 S5000x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S200000x16.size a
  hwx0_0 : ∀ i : grid0.Coords, EltTy.bits .f32 = 32 ∨ (Rect.block (s := S200000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S200000x32.size a
  hwx0_3 : ∀ i : grid0.Coords, EltTy.bits .f32 = 32 ∨ (Rect.block (s := S200000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)

variable [Facts₀]

def dot_S8000x16_S32x16_S8000x32_1_1_0_0_n_n : DotDims S8000x16 S32x16 S8000x32 where
  lhsContracting := [1]
  rhsContracting := [1]
  lhsNonContracting := [0]
  rhsNonContracting := [0]
  lhsBatch := []
  rhsBatch := []
  wf := dot_S8000x16_S32x16_S8000x32_1_1_0_0_n_n_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def scatter_S50000x32_S200000x1_S200000x32_1_0_0_1 : ScatterDims S50000x32 S200000x1 S200000x32 where
  updateWindowDims := [1]
  insertedWindowDims := [0]
  scatterDimsToOperandDims := [0]
  indexVectorDim := 1
  wf := scatter_S50000x32_S200000x1_S200000x32_1_0_0_1_wf
def dot_S5000x128_S32x128_S5000x32_1_1_0_0_n_n : DotDims S5000x128 S32x128 S5000x32 where
  lhsContracting := [1]
  rhsContracting := [1]
  lhsNonContracting := [0]
  rhsNonContracting := [0]
  lhsBatch := []
  rhsBatch := []
  wf := dot_S5000x128_S32x128_S5000x32_1_1_0_0_n_n_wf
def dot_S5000x32_S32x32_S5000x32_1_1_0_0_n_n : DotDims S5000x32 S32x32 S5000x32 where
  lhsContracting := [1]
  rhsContracting := [1]
  lhsNonContracting := [0]
  rhsNonContracting := [0]
  lhsBatch := []
  rhsBatch := []
  wf := dot_S5000x32_S32x32_S5000x32_1_1_0_0_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x32 : Shape := ⟨2, ![50000, 32]⟩
abbrev S50000x128 : Shape := ⟨2, ![50000, 128]⟩
abbrev S200000x16 : Shape := ⟨2, ![200000, 16]⟩
abbrev S1024x16 : Shape := ⟨2, ![1024, 16]⟩
abbrev S1024 : Shape := ⟨1, ![1024]⟩
abbrev S32x128 : Shape := ⟨2, ![32, 128]⟩
abbrev S32x32 : Shape := ⟨2, ![32, 32]⟩
abbrev S200000 : Shape := ⟨1, ![200000]⟩
abbrev S16x1024 : Shape := ⟨2, ![16, 1024]⟩
abbrev S200000x1024 : Shape := ⟨2, ![200000, 1024]⟩
abbrev S1x1024 : Shape := ⟨2, ![1, 1024]⟩
abbrev S200000x32x32 : Shape := ⟨3, ![200000, 32, 32]⟩
abbrev S_ : Shape := ⟨0, ![]⟩
abbrev S200000x1 : Shape := ⟨2, ![200000, 1]⟩
abbrev S200000x32 : Shape := ⟨2, ![200000, 32]⟩
abbrev S50000 : Shape := ⟨1, ![50000]⟩
abbrev S50000x1 : Shape := ⟨2, ![50000, 1]⟩
abbrev S128x32 : Shape := ⟨2, ![128, 32]⟩

abbrev nBuf : Space → Nat
  | .hbm => 51
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S50000x128, .f32⟩
  | .hbm, ⟨2, _⟩ => ⟨S200000x16, .f32⟩
  | .hbm, ⟨3, _⟩ => ⟨S1024x16, .f32⟩
  | .hbm, ⟨4, _⟩ => ⟨S1024, .f32⟩
  | .hbm, ⟨5, _⟩ => ⟨S32x128, .f32⟩
  | .hbm, ⟨6, _⟩ => ⟨S32x32, .f32⟩
  | .hbm, ⟨7, _⟩ => ⟨S200000, .i32⟩
  | .hbm, ⟨8, _⟩ => ⟨S200000, .i32⟩
  | .hbm, ⟨9, _⟩ => ⟨S16x1024, .f32⟩
  | .hbm, ⟨10, _⟩ => ⟨S200000x1024, .f32⟩
  | .hbm, ⟨11, _⟩ => ⟨S1x1024, .f32⟩
  | .hbm, ⟨12, _⟩ => ⟨S200000x1024, .f32⟩
  | .hbm, ⟨13, _⟩ => ⟨S200000x1024, .f32⟩
  | .hbm, ⟨14, _⟩ => ⟨S200000x32x32, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x32, .f32⟩
  | .hbm, ⟨24, _⟩ => ⟨S_, .f32⟩
  | .hbm, ⟨25, _⟩ => ⟨S200000x32, .f32⟩
  | .hbm, ⟨26, _⟩ => ⟨S200000x32, .f32⟩
  | .hbm, ⟨27, _⟩ => ⟨S_, .f32⟩
  | .hbm, ⟨28, _⟩ => ⟨S200000, .f32⟩
  | .hbm, ⟨29, _⟩ => ⟨S_, .f32⟩
  | .hbm, ⟨30, _⟩ => ⟨S50000, .f32⟩
  | .hbm, ⟨31, _⟩ => ⟨S200000x1, .i32⟩
  | .hbm, ⟨32, _⟩ => ⟨S50000, .f32⟩
  | .hbm, ⟨33, _⟩ => ⟨S_, .f32⟩
  | .hbm, ⟨34, _⟩ => ⟨S50000x32, .f32⟩
  | .hbm, ⟨35, _⟩ => ⟨S200000x1, .i32⟩
  | .hbm, ⟨36, _⟩ => ⟨S50000x32, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x32, .f32⟩
  | .hbm, ⟨42, _⟩ => ⟨S50000x32, .f32⟩
  | .hbm, ⟨43, _⟩ => ⟨S128x32, .f32⟩
  | .hbm, ⟨44, _⟩ => ⟨S50000x32, .f32⟩
  | .hbm, ⟨45, _⟩ => ⟨S32x32, .f32⟩
  | .hbm, ⟨46, _⟩ => ⟨S50000x32, .f32⟩
  | .hbm, ⟨47, _⟩ => ⟨S50000x32, .f32⟩
  | .hbm, ⟨48, _⟩ => ⟨S_, .f32⟩
  | .hbm, ⟨49, _⟩ => ⟨S50000x32, .f32⟩
  | .hbm, ⟨50, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  transposes_S1024x16_S16x1024_1_0 : S1024x16.Transposes [1, 0] S16x1024
  bcast_S1024_S1x1024_1 : S1024.BroadcastsInDim S1x1024 (![1] : Fin 1 → Fin S1x1024.rank)
  bcast_S1x1024_S200000x1024_0_1 : S1x1024.BroadcastsInDim S200000x1024 (![0, 1] : Fin 2 → Fin S200000x1024.rank)
  shapeCasts_S200000x1024_S200000x32x32 : S200000x1024.ShapeCasts S200000x32x32
  bcast_S_S200000 : S_.BroadcastsInDim S200000 (![] : Fin 0 → Fin S200000.rank)
  bcast_S200000_S200000x1_0 : S200000.BroadcastsInDim S200000x1 (![0] : Fin 1 → Fin S200000x1.rank)
  reducesTo_S200000x32x32_S200000x32_d1 : S200000x32x32.ReducesTo [1] S200000x32
  h_S_ : 0 < S_.numel
  bcast_S_S50000 : S_.BroadcastsInDim S50000 (![] : Fin 0 → Fin S50000.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  transposes_S32x128_S128x32_1_0 : S32x128.Transposes [1, 0] S128x32
  transposes_S32x32_S32x32_1_0 : S32x32.Transposes [1, 0] S32x32
  dot_S200000x16_S16x1024_S200000x1024_1_0_0_1_n_n_wf : DotDims.WF S200000x16 S16x1024 S200000x1024 [1] [0] [0] [1] [] []
  gather_S50000x32_S200000x1_S200000x32_1_0_n_n_0_1_132_wf : GatherDims.WF S50000x32 S200000x1 S200000x32 [1] [0] [] [0] [] 1 ![1, 32]
  scatter_S50000_S200000x1_S200000_n_0_0_1_wf : ScatterDims.WF S50000 S200000x1 S200000 [] [0] [0] 1
  scatter_S50000x32_S200000x1_S200000x32_1_0_0_1_wf : ScatterDims.WF S50000x32 S200000x1 S200000x32 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []

variable [Facts₀]

def dot_S200000x16_S16x1024_S200000x1024_1_0_0_1_n_n : DotDims S200000x16 S16x1024 S200000x1024 where
  lhsContracting := [1]
  rhsContracting := [0]
  lhsNonContracting := [0]
  rhsNonContracting := [1]
  lhsBatch := []
  rhsBatch := []
  wf := dot_S200000x16_S16x1024_S200000x1024_1_0_0_1_n_n_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def scatter_S50000x32_S200000x1_S200000x32_1_0_0_1 : ScatterDims S50000x32 S200000x1 S200000x32 where
  updateWindowDims := [1]
  insertedWindowDims := [0]
  scatterDimsToOperandDims := [0]
  indexVectorDim := 1
  wf := scatter_S50000x32_S200000x1_S200000x32_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf

class Facts : Prop extends Facts₀ where

variable [Facts]
-- ==== Proof.KernelTerms.lean ====
/-
  The host operations of the kernel's program around its two regions, as plain functions of arrays.

  Before the first region the 1024 × 16 edge weight table is regrouped as 32 × 32 × 16 and summed over
  its first axis (`wRed`), and the 1024-entry bias likewise as 32 × 32 summed over its first axis, laid
  out as a 1 × 32 row (`bRed`).  Between the regions the rows of the neighbour table are taken at the
  source indices (`takeRows`: a negative index wraps by the table's height, and a row whose wrapped
  index lies outside 0 … 49999 is filled with a not-a-number word), multiplied entrywise with the first
  region's output, scatter-added by destination index, and divided by the clamped in-degree (`aggOf`).
-/
import proofs.«426549_j72310069396093_1_alg».proof.Proof.Gen.KernelIdeal
import Idealize.ShloMosaic.PureOps.Ideal

noncomputable section

namespace Cert.KernelIdeal.Terms

open Cert.KernelIdeal Cert.KernelIdeal.Gen
open Idealize.ShloMosaic

/-- The edge weight table summed over its leading group axis: entry (j, d) is `Σ_i W[32 i + j, d]` (from 0). -/
def wRed (x3 : FVec Ideal S1024x16 .f32) : FVec Ideal S32x16 .f32 :=
  Host.reduceAdd (F := Ideal) (shapeCast S32x32x16 x3 shapeCasts_S1024x16_S32x32x16) (constant (F := Ideal) S_ .f32 0x00000000#32)
    reducesTo_S32x32x16_S32x16_d0 h_S_

/-- The edge bias summed over its leading group axis, as a 1 × 32 row: entry (0, j) is `Σ_i b[32 i + j]` (from 0). -/
def bRed (x4 : FVec Ideal S1024 .f32) : FVec Ideal S1x32 .f32 :=
  shapeCast S1x32
    (Host.reduceAdd (F := Ideal) (shapeCast S32x32 x4 shapeCasts_S1024_S32x32) (constant (F := Ideal) S_ .f32 0x00000000#32)
      reducesTo_S32x32_S32_d0 h_S_)
    shapeCasts_S32_S1x32

/-- A source index wrapped once by the table's height when negative. -/
def srcWrap (x7 : IVec S200000 32) : IVec S200000 32 :=
  select (cmpi .slt x7 (broadcastInDim S200000 ![] bcast_S_S200000 (constantI S_ 32 0#32)))
    (addi x7 (broadcastInDim S200000 ![] bcast_S_S200000 (constantI S_ 32 50000#32))) x7

/-- The wrapped source indices as a column of index vectors. -/
def srcCol (x7 : IVec S200000 32) : IVec S200000x1 32 :=
  broadcastInDim S200000x1 ![0] bcast_S200000_S200000x1_0 (srcWrap x7)

/-- Per edge: is the wrapped source index inside 0 … 49999? -/
def srcOk (x7 : IVec S200000 32) : IVec S200000 1 :=
  Host.reduce IntOp.andi
    (andi (cmpi .sge (srcCol x7) (broadcastInDim S200000x1 ![] bcast_S_S200000x1 (constantI S_ 32 0#32)))
      (cmpi .sle (srcCol x7)
        (broadcastInDim S200000x1 ![0, 1] bcast_S1x1_S200000x1_0_1
          (broadcastInDim S1x1 ![1] bcast_S1_S1x1_1 (constantI S1 32 49999#32)))))
    (constantI S_ 1 1#1) reducesTo_S200000x1_S200000_d1 h_S_

/-- The neighbour table's rows at the wrapped source indices, out-of-range rows filled with a not-a-number word. -/
def takeRows (x0 : FVec Ideal S50000x32 .f32) (x7 : IVec S200000 32) :
    FVec Ideal S200000x32 .f32 :=
  select (broadcastInDim S200000x32 ![0] bcast_S200000_S200000x32_0 (srcOk x7))
    (Host.gather gather_S50000x32_S200000x1_S200000x32_1_0_n_n_0_1_132 x0 (srcCol x7))
    (broadcastInDim S200000x32 ![] bcast_S_S200000x32 (constant (F := Ideal) S_ .f32 0x7FC00000#32))

/-- Messages scatter-added by destination and divided by the in-degree clamped below at one. -/
def aggOf (s : FVec Ideal S200000x32 .f32) (x8 : IVec S200000 32) :
    FVec Ideal S50000x32 .f32 :=
  Host.divf (F := Ideal)
    (Host.scatterAdd (F := Ideal) scatter_S50000x32_S200000x1_S200000x32_1_0_0_1
      (broadcastInDim S50000x32 ![] bcast_S_S50000x32 (constant (F := Ideal) S_ .f32 0x00000000#32))
      (broadcastInDim S200000x1 ![0] bcast_S200000_S200000x1_0 x8) s)
    (broadcastInDim S50000x32 ![0, 1] bcast_S50000x1_S50000x32_0_1
      (broadcastInDim S50000x1 ![0] bcast_S50000_S50000x1_0
        (maximumf (F := Ideal)
          (Host.scatterAdd (F := Ideal) scatter_S50000_S200000x1_S200000_n_0_0_1
            (broadcastInDim S50000 ![] bcast_S_S50000 (constant (F := Ideal) S_ .f32 0x00000000#32))
            (broadcastInDim S200000x1 ![0] bcast_S200000_S200000x1_0 x8)
            (broadcastInDim S200000 ![] bcast_S_S200000 (constant (F := Ideal) S_ .f32 0x3F800000#32)))
          (broadcastInDim S50000 ![] bcast_S_S50000 (constant (F := Ideal) S_ .f32 0x3F800000#32)))))

end Cert.KernelIdeal.Terms

end
-- ==== Proof.Spec.lean ====
/-
  The two formulas the kernel's regions compute, stated once over plain arrays of extended reals.

  * `edgeLin x w b` — the per-edge linear map into 32 channels: entry (e, j) is
    `Σ_k x[e, k] · w[j, k] + b[0, j]`, with `x` the 200000 × 16 edge features, `w` a 32 × 16 weight
    table and `b` a 1 × 32 bias row.
  * `nodeOut h a ws wn` — the node update: entry (n, o) is
    `max (Σ_k h[n, k] · ws[o, k] + Σ_k a[n, k] · wn[o, k]) 0`, with `h` the 50000 × 128 self features,
    `a` the 50000 × 32 aggregated messages, and `ws`, `wn` the two weight tables (both contracted
    along their second axis, i.e. multiplied as transposes).
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Arr2 (n0 n1 : Nat) : Type := (⟨2, ![n0, n1]⟩ : Shape).Idx → EReal

/-- Entry (e, j) of the per-edge linear map: `Σ_k x[e, k] · w[j, k] + b[0, j]`. -/
def edgeLinAt (x : Arr2 200000 16) (w : Arr2 32 16) (b : Arr2 1 32) (e : Fin 200000) (j : Fin 32) : EReal :=
  (∑ k : Fin 16, x (ix2 e k) * w (ix2 j k)) + b (ix2 0 j)

/-- The per-edge linear map as a whole array. -/
def edgeLin (x : Arr2 200000 16) (w : Arr2 32 16) (b : Arr2 1 32) : Arr2 200000 32 :=
  fun i => edgeLinAt x w b ⟨(i 0).val, (i 0).isLt⟩ ⟨(i 1).val, (i 1).isLt⟩

theorem edgeLin_apply (x : Arr2 200000 16) (w : Arr2 32 16) (b : Arr2 1 32) (e : Fin 200000) (j : Fin 32) :
    edgeLin x w b (ix2 e j) = (∑ k : Fin 16, x (ix2 e k) * w (ix2 j k)) + b (ix2 0 j) := rfl

/-- Entry (n, o) of the node update: `max (Σ_k h[n, k] · ws[o, k] + Σ_k a[n, k] · wn[o, k]) 0`. -/
def nodeOutAt (h : Arr2 50000 128) (a : Arr2 50000 32) (ws : Arr2 32 128) (wn : Arr2 32 32)
    (n : Fin 50000) (o : Fin 32) : EReal :=
  max ((∑ k : Fin 128, h (ix2 n k) * ws (ix2 o k)) + ∑ k : Fin 32, a (ix2 n k) * wn (ix2 o k)) 0

/-- The node update as a whole array. -/
def nodeOut (h : Arr2 50000 128) (a : Arr2 50000 32) (ws : Arr2 32 128) (wn : Arr2 32 32) : Arr2 50000 32 :=
  fun i => nodeOutAt h a ws wn ⟨(i 0).val, (i 0).isLt⟩ ⟨(i 1).val, (i 1).isLt⟩

theorem nodeOut_apply (h : Arr2 50000 128) (a : Arr2 50000 32) (ws : Arr2 32 128) (wn : Arr2 32 32)
    (n : Fin 50000) (o : Fin 32) :
    nodeOut h a ws wn (ix2 n o)
      = max ((∑ k : Fin 128, h (ix2 n k) * ws (ix2 o k)) + ∑ k : Fin 32, a (ix2 n k) * wn (ix2 o k)) 0 := rfl

end Cert.Spec

end
-- ==== Proof.EdgeRegion.lean ====
/-
  The first region's output array, read whole: after all 25 grid points have written their
  8000-row blocks back, the 200000 × 32 array is the per-edge linear map `Spec.edgeLin` of the
  three arrays the region reads (edge features, the 32 × 16 weight table, the 1 × 32 bias row).

  Two steps. At one entry (p, q) of a block the body's stored value is
  `Σ_k x[p, k] · w[q, k] + b[0, q]` of the three blocks it loads: the product contracts axis 1 of both
  operands, so the weight table enters as its transpose, and the bias row is repeated down the 8000 rows.
  Then the blocks: at point `t` the edge features and the output are at rows `8000 t … 8000 t + 7999`
  while the weight table and the bias row are whole, so what point `t` writes back is block `t` of
  `edgeLin`; row `r` of the output lies in the block of point `r / 8000`, so the 25 blocks cover the array.
-/
import proofs.«426549_j72310069396093_1_alg».proof.Proof.Gen.KernelIdeal.Frame
import proofs.«426549_j72310069396093_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The body's arithmetic at one entry of a block -/

/-- The left operand of the body's product is read at the output's row: its axis 0 is not contracted. -/
theorem lhs_edge_0 (i : S8000x32.Idx) (q : dot_S8000x16_S32x16_S8000x32_1_1_0_0_n_n.contr.Idx) :
    (dot_S8000x16_S32x16_S8000x32_1_1_0_0_n_n.lhsIdx i q 0).val = (i 0).val := by
  unfold DotDims.lhsIdx
  rw [dif_neg (show ¬(0 : Fin S8000x16.rank) ∈ dot_S8000x16_S32x16_S8000x32_1_1_0_0_n_n.lhsBatch by decide), dif_pos (show (0 : Fin S8000x16.rank) ∈ dot_S8000x16_S32x16_S8000x32_1_1_0_0_n_n.lhsNonContracting by decide)]
  rfl
/-- Its axis 1 is the contracted one: it is read at the summation index. -/
theorem lhs_edge_1 (i : S8000x32.Idx) (q : dot_S8000x16_S32x16_S8000x32_1_1_0_0_n_n.contr.Idx) :
    (dot_S8000x16_S32x16_S8000x32_1_1_0_0_n_n.lhsIdx i q 1).val = (q ⟨0, by decide⟩).val :=
  dot_S8000x16_S32x16_S8000x32_1_1_0_0_n_n.lhsIdx_val_of_single rfl i q
/-- The right operand (the 32 × 16 weight table) is read at the output's column on its axis 0, -/
theorem rhs_edge_0 (i : S8000x32.Idx) (q : dot_S8000x16_S32x16_S8000x32_1_1_0_0_n_n.contr.Idx) :
    (dot_S8000x16_S32x16_S8000x32_1_1_0_0_n_n.rhsIdx i q 0).val = (i 1).val := by
  unfold DotDims.rhsIdx
  rw [dif_neg (show ¬(0 : Fin S32x16.rank) ∈ dot_S8000x16_S32x16_S8000x32_1_1_0_0_n_n.rhsBatch by decide), dif_pos (show (0 : Fin S32x16.rank) ∈ dot_S8000x16_S32x16_S8000x32_1_1_0_0_n_n.rhsNonContracting by decide)]
  rfl
/-- and at the summation index on its axis 1: the table is multiplied as its transpose. -/
theorem rhs_edge_1 (i : S8000x32.Idx) (q : dot_S8000x16_S32x16_S8000x32_1_1_0_0_n_n.contr.Idx) :
    (dot_S8000x16_S32x16_S8000x32_1_1_0_0_n_n.rhsIdx i q 1).val = (q ⟨0, by decide⟩).val :=
  dot_S8000x16_S32x16_S8000x32_1_1_0_0_n_n.rhsIdx_val_of_single rfl i q

/-- The body's product into the zero accumulator, at entry (p, q): `Σ_k l[p, k] · r[q, k]`. -/
theorem matmul_edge_apply (l : FVec Ideal S8000x16 .bf16) (r : FVec Ideal S32x16 .bf16) (p : Fin 8000) (q : Fin 32) :
    matmul (F := Ideal) dot_S8000x16_S32x16_S8000x32_1_1_0_0_n_n none l r (constant (F := Ideal) S8000x32 .f32 0x00000000#32) (ix2 p q)
      = ∑ k : Fin 16, l (ix2 p k) * r (ix2 q k) := by
  simp only [matmul]
  rw [Ideal.matmul_constant_zero_apply, ← Equiv.sum_comp (ValueIdx.contrEquiv1 dot_S8000x16_S32x16_S8000x32_1_1_0_0_n_n 16 rfl rfl).symm]
  refine Finset.sum_congr rfl fun k _ => ?_
  have hk := ValueIdx.contrEquiv1_symm_val dot_S8000x16_S32x16_S8000x32_1_1_0_0_n_n 16 rfl rfl k
  have el : dot_S8000x16_S32x16_S8000x32_1_1_0_0_n_n.lhsIdx (ix2 p q) ((ValueIdx.contrEquiv1 dot_S8000x16_S32x16_S8000x32_1_1_0_0_n_n 16 rfl rfl).symm k) = ix2 p k := funext fun a => Fin.ext (by
    match a with
    | ⟨0, _⟩ => exact lhs_edge_0 _ _
    | ⟨1, _⟩ => exact (lhs_edge_1 _ _).trans hk)
  have er : dot_S8000x16_S32x16_S8000x32_1_1_0_0_n_n.rhsIdx (ix2 p q) ((ValueIdx.contrEquiv1 dot_S8000x16_S32x16_S8000x32_1_1_0_0_n_n 16 rfl rfl).symm k) = ix2 q k := funext fun a => Fin.ext (by
    match a with
    | ⟨0, _⟩ => exact rhs_edge_0 _ _
    | ⟨1, _⟩ => exact (rhs_edge_1 _ _).trans hk)
  rw [el, er]

/-- The body's stored value at entry (p, q) of its block: the product of the edge rows with the transposed weight table,
    plus the bias row (the changes of float format are the identity on the extended reals; the two shape casts keep
    their shapes). -/
theorem pay_apply (x : Vec Ideal S8000x16 .f32) (w : Vec Ideal S32x16 .f32) (b : Vec Ideal S1x32 .f32) (p : Fin 8000) (q : Fin 32) :
    k0_pay1 (F := Ideal) x w b (ix2 p q) = (∑ k : Fin 16, x (ix2 p k) * w (ix2 q k)) + b (ix2 0 q) := by
  unfold k0_pay1
  have ew : shapeCast S32x16 w shapeCasts_S32x16_S32x16 = w := shapeCast_self w _
  have eb : shapeCast S1x32 b shapeCasts_S1x32_S1x32 = b := shapeCast_self b _
  refine (addf_apply _ _ _).trans ?_
  refine congrArg₂ (· + ·) ?_ ?_
  · refine (matmul_edge_apply _ _ p q).trans ?_
    rw [ew]
    rfl
  · refine (broadcastTo_1b_ab_apply _ _ p q).trans ?_
    rw [eb]

/-! ## From blocks to the array -/

/-- The body reads and writes its staging buffers whole: every access starts at offset zero. -/
theorem zero_off : (![0, 0] : Fin 2 → Nat) = fun _ => 0 :=
  funext fun a => by match a with | ⟨0, _⟩ => rfl | ⟨1, _⟩ => rfl

/-- The grid has 25 points. -/
theorem point_lt (t : Fin cfg0.N) : t.val < 25 := by
  have h : t.val < grid0.N := t.isLt
  rw [N_0] at h
  exact h

/-- Where the windows' blocks sit at point `t`, decided once over the 25 points: the edge features and the output move
    down one block of 8000 rows per point; the weight table and the bias row stay where they are. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the edge-feature block at point `t` is row `8000 t + p` of the array. -/
theorem edge_blk_apply (c : Dev nD) (t : Fin cfg0.N) (p : Fin 8000) (k : Fin 16) (h : t.val * 8000 + p.val < 200000) :
    iblk0 V c 0 t (ix2 p k) = V c main_arg2 (ix2 ⟨t.val * 8000 + p.val, h⟩ k) := by
  obtain ⟨e0, e1, -⟩ := block_index t
  show V c main_arg2 (((cfg0.win 0).blk t).view.emb (ix2 p k)) = _
  refine congrArg (V c main_arg2) (funext fun a => Fin.ext ?_)
  match a with
  | ⟨0, _⟩ => show win0_0.index t (0 : Fin 2) * 8000 + 1 * p.val = t.val * 8000 + p.val; omega
  | ⟨1, _⟩ => show win0_0.index t (1 : Fin 2) * 16 + 1 * k.val = k.val; omega

/-- The weight table's one block is the table. -/
theorem weight_blk_apply (c : Dev nD) (t : Fin cfg0.N) (q : Fin 32) (k : Fin 16) :
    iblk0 V c 1 t (ix2 q k) = V c main_v1 (ix2 q k) := by
  obtain ⟨-, -, e0, e1, -⟩ := block_index t
  show V c main_v1 (((cfg0.win 1).blk t).view.emb (ix2 q k)) = _
  refine congrArg (V c main_v1) (funext fun a => Fin.ext ?_)
  match a with
  | ⟨0, _⟩ => show win0_1.index t (0 : Fin 2) * 32 + 1 * q.val = q.val; omega
  | ⟨1, _⟩ => show win0_1.index t (1 : Fin 2) * 16 + 1 * k.val = k.val; omega

/-- The bias row's one block is the row. -/
theorem bias_blk_apply (c : Dev nD) (t : Fin cfg0.N) (z : Fin 1) (q : Fin 32) :
    iblk0 V c 2 t (ix2 z q) = V c main_v4 (ix2 z q) := by
  obtain ⟨-, -, -, -, e0, e1, -⟩ := block_index t
  show V c main_v4 (((cfg0.win 2).blk t).view.emb (ix2 z q)) = _
  refine congrArg (V c main_v4) (funext fun a => Fin.ext ?_)
  match a with
  | ⟨0, _⟩ => show win0_2.index t (0 : Fin 2) * 1 + 1 * z.val = z.val; omega
  | ⟨1, _⟩ => show win0_2.index t (1 : Fin 2) * 32 + 1 * q.val = q.val; omega

/-- Row `p` of the output's block at point `t` is row `8000 t + p` of the output array. -/
theorem out_blk_apply (G : Cert.Spec.Arr2 200000 32) (t : Fin cfg0.N) (p : Fin 8000) (q : Fin 32) (h : t.val * 8000 + p.val < 200000) :
    ((cfg0.win 3).blk t).view.read (Elt Ideal) G (ix2 p q) = G (ix2 ⟨t.val * 8000 + p.val, h⟩ q) := by
  obtain ⟨-, -, -, -, -, -, e0, e1⟩ := block_index t
  show G (((cfg0.win 3).blk t).view.emb (ix2 p q)) = _
  refine congrArg G (funext fun a => Fin.ext ?_)
  match a with
  | ⟨0, _⟩ => show win0_3.index t (0 : Fin 2) * 8000 + 1 * p.val = t.val * 8000 + p.val; omega
  | ⟨1, _⟩ => show win0_3.index t (1 : Fin 2) * 32 + 1 * q.val = q.val; omega

/-- What point `t` writes back is block `t` of `edgeLin` of the three arrays as the region finds them. -/
theorem flushed_eq (c : Dev nD) (t : Fin cfg0.N) :
    (dat0 (F := Ideal) V c).flushed 3 t
      = ((cfg0.win 3).blk t).view.read (Elt Ideal) (Cert.Spec.edgeLin (V c main_arg2) (V c main_v1) (V c main_v4)) := by
  show (cfg0.win 3).cut (grid0.coords t) ((dat0 (F := Ideal) V c).after 3 t) = _
  rw [after0_3]
  unfold out0_3
  rw [View.canon_unit_zero zero_off]
  simp only [View.ld_unit_zero (S := S8000x16) zero_off, View.ld_unit_zero (S := S32x16) zero_off, View.ld_unit_zero (S := S1x32) zero_off]
  funext j
  obtain ⟨p, q, rfl⟩ : ∃ (p : Fin 8000) (q : Fin 32), j = ix2 p q := ⟨j 0, j 1, eq_ix2 j⟩
  have hp : t.val * 8000 + p.val < 200000 := by have := point_lt t; have := p.isLt; omega
  refine (pay_apply (iblk0 V c 0 t) (iblk0 V c 1 t) (iblk0 V c 2 t) p q).trans ?_
  refine (congrArg₂ (fun a b : EReal => a + b)
    (Finset.sum_congr rfl fun k _ => congrArg₂ (fun a b : EReal => a * b) (edge_blk_apply V c t p k hp) (weight_blk_apply V c t q k))
    (bias_blk_apply V c t 0 q)).trans ?_
  exact ((out_blk_apply _ t p q hp).trans (Cert.Spec.edgeLin_apply _ _ _ _ _)).symm

/-- An index of the output array is in point `t`'s block iff each coordinate is in the block's range on its axis. -/
theorem mem_blk (t : Fin cfg0.N) (i : S200000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v5).slice (win0_3.rect t)).set ↔ _
  rw [View.set_slice_whole, Rect.mem_set_unit]
  exact Iff.rfl

/-- Every row of the output array lies in some point's block: row `r` in that of point `r / 8000`. -/
theorem covered (i : S200000x32.Idx) :
    ∃ t : Fin cfg0.N, (cfg0.win 3).flush t = true ∧ i ∈ ((cfg0.win 3).blk t).view.set := by
  have hi0 : (i 0).val < 200000 := (i 0).isLt
  have hi1 : (i 1).val < 32 := (i 1).isLt
  have hN : (i 0).val / 8000 < grid0.N := by rw [N_0]; omega
  refine ⟨⟨(i 0).val / 8000, hN⟩, flush0_3 _, ?_⟩
  obtain ⟨-, -, -, -, -, -, e0, e1⟩ := block_index ⟨(i 0).val / 8000, hN⟩
  rw [mem_blk]
  intro a
  match a with
  | ⟨0, _⟩ =>
    show win0_3.index ⟨(i 0).val / 8000, hN⟩ (0 : Fin 2) * 8000 ≤ (i 0).val ∧ (i 0).val < win0_3.index ⟨(i 0).val / 8000, hN⟩ (0 : Fin 2) * 8000 + 8000
    rw [e0]; show (i 0).val / 8000 * 8000 ≤ (i 0).val ∧ (i 0).val < (i 0).val / 8000 * 8000 + 8000; omega
  | ⟨1, _⟩ =>
    show win0_3.index ⟨(i 0).val / 8000, hN⟩ (1 : Fin 2) * 32 ≤ (i 1).val ∧ (i 1).val < win0_3.index ⟨(i 0).val / 8000, hN⟩ (1 : Fin 2) * 32 + 32
    rw [e1]; omega

/-- The edge region's output array after its last write-back is `edgeLin` of the region's three input arrays,
    whatever the buffers hold when the region is entered. -/
theorem arr_eq (c : Dev nD) :
    (dat0 (F := Ideal) V c).arrAt 3 cfg0.N
      = Cert.Spec.edgeLin (V c main_arg2) (V c main_v1) (V c main_v4) :=
  (dat0 (F := Ideal) V c).arrAt_eq_of_cover 3 (Cert.Spec.edgeLin (V c main_arg2) (V c main_v1) (V c main_v4))
    (fun t _ => flushed_eq V c t) covered

end Cert.KernelIdeal.EdgeRegion

end
-- ==== Proof.NodeRegion.lean ====
/-
  The second region's output array, read whole: after all 10 grid points have written their
  5000-row blocks back, the 50000 × 32 array is the node update `Spec.nodeOut` of the four arrays
  the region reads (self features, aggregated messages, and the two weight tables).
-/
import proofs.«426549_j72310069396093_1_alg».proof.Proof.Gen.KernelIdeal.Frame
import proofs.«426549_j72310069396093_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The two contractions' operand indices

Both matrix products contract axis 1 of both operands: at output index `(p, q)` and contraction index `k` the left
operand is read at `(p, k)` and the right one at `(q, k)`. -/

theorem lhs_self_0 (i : S5000x32.Idx) (q : dot_S5000x128_S32x128_S5000x32_1_1_0_0_n_n.contr.Idx) :
    (dot_S5000x128_S32x128_S5000x32_1_1_0_0_n_n.lhsIdx i q 0).val = (i 0).val := by
  unfold DotDims.lhsIdx
  rw [dif_neg (show ¬(0 : Fin S5000x128.rank) ∈ dot_S5000x128_S32x128_S5000x32_1_1_0_0_n_n.lhsBatch by decide), dif_pos (show (0 : Fin S5000x128.rank) ∈ dot_S5000x128_S32x128_S5000x32_1_1_0_0_n_n.lhsNonContracting by decide)]
  rfl
theorem lhs_self_1 (i : S5000x32.Idx) (q : dot_S5000x128_S32x128_S5000x32_1_1_0_0_n_n.contr.Idx) :
    (dot_S5000x128_S32x128_S5000x32_1_1_0_0_n_n.lhsIdx i q 1).val = (q ⟨0, by decide⟩).val :=
  dot_S5000x128_S32x128_S5000x32_1_1_0_0_n_n.lhsIdx_val_of_single rfl i q
theorem rhs_self_0 (i : S5000x32.Idx) (q : dot_S5000x128_S32x128_S5000x32_1_1_0_0_n_n.contr.Idx) :
    (dot_S5000x128_S32x128_S5000x32_1_1_0_0_n_n.rhsIdx i q 0).val = (i 1).val := by
  unfold DotDims.rhsIdx
  rw [dif_neg (show ¬(0 : Fin S32x128.rank) ∈ dot_S5000x128_S32x128_S5000x32_1_1_0_0_n_n.rhsBatch by decide), dif_pos (show (0 : Fin S32x128.rank) ∈ dot_S5000x128_S32x128_S5000x32_1_1_0_0_n_n.rhsNonContracting by decide)]
  rfl
theorem rhs_self_1 (i : S5000x32.Idx) (q : dot_S5000x128_S32x128_S5000x32_1_1_0_0_n_n.contr.Idx) :
    (dot_S5000x128_S32x128_S5000x32_1_1_0_0_n_n.rhsIdx i q 1).val = (q ⟨0, by decide⟩).val :=
  dot_S5000x128_S32x128_S5000x32_1_1_0_0_n_n.rhsIdx_val_of_single rfl i q

theorem lhs_nbr_0 (i : S5000x32.Idx) (q : dot_S5000x32_S32x32_S5000x32_1_1_0_0_n_n.contr.Idx) :
    (dot_S5000x32_S32x32_S5000x32_1_1_0_0_n_n.lhsIdx i q 0).val = (i 0).val := by
  unfold DotDims.lhsIdx
  rw [dif_neg (show ¬(0 : Fin S5000x32.rank) ∈ dot_S5000x32_S32x32_S5000x32_1_1_0_0_n_n.lhsBatch by decide), dif_pos (show (0 : Fin S5000x32.rank) ∈ dot_S5000x32_S32x32_S5000x32_1_1_0_0_n_n.lhsNonContracting by decide)]
  rfl
theorem lhs_nbr_1 (i : S5000x32.Idx) (q : dot_S5000x32_S32x32_S5000x32_1_1_0_0_n_n.contr.Idx) :
    (dot_S5000x32_S32x32_S5000x32_1_1_0_0_n_n.lhsIdx i q 1).val = (q ⟨0, by decide⟩).val :=
  dot_S5000x32_S32x32_S5000x32_1_1_0_0_n_n.lhsIdx_val_of_single rfl i q
theorem rhs_nbr_0 (i : S5000x32.Idx) (q : dot_S5000x32_S32x32_S5000x32_1_1_0_0_n_n.contr.Idx) :
    (dot_S5000x32_S32x32_S5000x32_1_1_0_0_n_n.rhsIdx i q 0).val = (i 1).val := by
  unfold DotDims.rhsIdx
  rw [dif_neg (show ¬(0 : Fin S32x32.rank) ∈ dot_S5000x32_S32x32_S5000x32_1_1_0_0_n_n.rhsBatch by decide), dif_pos (show (0 : Fin S32x32.rank) ∈ dot_S5000x32_S32x32_S5000x32_1_1_0_0_n_n.rhsNonContracting by decide)]
  rfl
theorem rhs_nbr_1 (i : S5000x32.Idx) (q : dot_S5000x32_S32x32_S5000x32_1_1_0_0_n_n.contr.Idx) :
    (dot_S5000x32_S32x32_S5000x32_1_1_0_0_n_n.rhsIdx i q 1).val = (q ⟨0, by decide⟩).val :=
  dot_S5000x32_S32x32_S5000x32_1_1_0_0_n_n.rhsIdx_val_of_single rfl i q

/-- The self-feature product into the zero accumulator, at `(p, q)`: `Σ_k lhs[p, k] · rhs[q, k]` over the 128 features. -/
theorem matmul_self_apply (lhs : FVec Ideal S5000x128 .bf16) (rhs : FVec Ideal S32x128 .bf16) (p : Fin 5000) (q : Fin 32) :
    matmul (F := Ideal) dot_S5000x128_S32x128_S5000x32_1_1_0_0_n_n none lhs rhs (constant (F := Ideal) S5000x32 .f32 0x00000000#32) (ix2 p q)
      = ∑ k : Fin 128, lhs (ix2 p k) * rhs (ix2 q k) := by
  simp only [matmul]
  rw [Ideal.matmul_constant_zero_apply, ← Equiv.sum_comp (ValueIdx.contrEquiv1 dot_S5000x128_S32x128_S5000x32_1_1_0_0_n_n 128 rfl rfl).symm]
  refine Finset.sum_congr rfl fun k _ => ?_
  have hk := ValueIdx.contrEquiv1_symm_val dot_S5000x128_S32x128_S5000x32_1_1_0_0_n_n 128 rfl rfl k
  have el : dot_S5000x128_S32x128_S5000x32_1_1_0_0_n_n.lhsIdx (ix2 p q) ((ValueIdx.contrEquiv1 dot_S5000x128_S32x128_S5000x32_1_1_0_0_n_n 128 rfl rfl).symm k) = ix2 p k := funext fun a => Fin.ext (by
    match a with
    | ⟨0, _⟩ => exact lhs_self_0 _ _
    | ⟨1, _⟩ => exact (lhs_self_1 _ _).trans hk)
  have er : dot_S5000x128_S32x128_S5000x32_1_1_0_0_n_n.rhsIdx (ix2 p q) ((ValueIdx.contrEquiv1 dot_S5000x128_S32x128_S5000x32_1_1_0_0_n_n 128 rfl rfl).symm k) = ix2 q k := funext fun a => Fin.ext (by
    match a with
    | ⟨0, _⟩ => exact rhs_self_0 _ _
    | ⟨1, _⟩ => exact (rhs_self_1 _ _).trans hk)
  rw [el, er]

/-- The aggregated-message product into the zero accumulator, at `(p, q)`: `Σ_k lhs[p, k] · rhs[q, k]` over the 32 channels. -/
theorem matmul_nbr_apply (lhs : FVec Ideal S5000x32 .bf16) (rhs : FVec Ideal S32x32 .bf16) (p : Fin 5000) (q : Fin 32) :
    matmul (F := Ideal) dot_S5000x32_S32x32_S5000x32_1_1_0_0_n_n none lhs rhs (constant (F := Ideal) S5000x32 .f32 0x00000000#32) (ix2 p q)
      = ∑ k : Fin 32, lhs (ix2 p k) * rhs (ix2 q k) := by
  simp only [matmul]
  rw [Ideal.matmul_constant_zero_apply, ← Equiv.sum_comp (ValueIdx.contrEquiv1 dot_S5000x32_S32x32_S5000x32_1_1_0_0_n_n 32 rfl rfl).symm]
  refine Finset.sum_congr rfl fun k _ => ?_
  have hk := ValueIdx.contrEquiv1_symm_val dot_S5000x32_S32x32_S5000x32_1_1_0_0_n_n 32 rfl rfl k
  have el : dot_S5000x32_S32x32_S5000x32_1_1_0_0_n_n.lhsIdx (ix2 p q) ((ValueIdx.contrEquiv1 dot_S5000x32_S32x32_S5000x32_1_1_0_0_n_n 32 rfl rfl).symm k) = ix2 p k := funext fun a => Fin.ext (by
    match a with
    | ⟨0, _⟩ => exact lhs_nbr_0 _ _
    | ⟨1, _⟩ => exact (lhs_nbr_1 _ _).trans hk)
  have er : dot_S5000x32_S32x32_S5000x32_1_1_0_0_n_n.rhsIdx (ix2 p q) ((ValueIdx.contrEquiv1 dot_S5000x32_S32x32_S5000x32_1_1_0_0_n_n 32 rfl rfl).symm k) = ix2 q k := funext fun a => Fin.ext (by
    match a with
    | ⟨0, _⟩ => exact rhs_nbr_0 _ _
    | ⟨1, _⟩ => exact (rhs_nbr_1 _ _).trans hk)
  rw [el, er]

/-- THE PAYLOAD AT AN INDEX: the stored block's entry `(p, q)` is the rectified sum of the two products of the loaded
    blocks, `max (Σ_k x0[p, k] · x2[q, k] + Σ_k x1[p, k] · x3[q, k]) 0` (the narrowing format changes are the identity on
    extended reals, the shape cast is to the same shape, and the broadcast scalar is zero). -/
theorem pay_apply (x0 : FVec Ideal S5000x128 .f32) (x1 : FVec Ideal S5000x32 .f32) (x2 : FVec Ideal S32x128 .f32)
    (x3 : FVec Ideal S32x32 .f32) (p : Fin 5000) (q : Fin 32) :
    k1_pay1 (F := Ideal) x0 x1 x2 x3 (ix2 p q)
      = max ((∑ k : Fin 128, x0 (ix2 p k) * x2 (ix2 q k)) + ∑ k : Fin 32, x1 (ix2 p k) * x3 (ix2 q k)) 0 := by
  unfold k1_pay1
  rw [maximumf_apply, addf_apply, broadcast_apply, matmul_self_apply, matmul_nbr_apply, Ideal.ofBits_def, Ideal.ofBits_zero_f32]
  simp only [truncf_apply, shapeCast_self]

/-! ## One point's block: the node update of the rows it holds -/

/-- What one grid point stores, over plain arrays: if the loaded blocks are rows `n · 5000 …` of the self features and
    of the aggregated messages and the two weight tables whole, the stored block's entry `(p, q)` is the node update at
    row `n · 5000 + p`, channel `q`. -/
theorem block_entry (a0 : Cert.Spec.Arr2 50000 128) (a1 : Cert.Spec.Arr2 50000 32) (a2 : Cert.Spec.Arr2 32 128)
    (a3 : Cert.Spec.Arr2 32 32) (x0 : FVec Ideal S5000x128 .f32) (x1 : FVec Ideal S5000x32 .f32)
    (x2 : FVec Ideal S32x128 .f32) (x3 : FVec Ideal S32x32 .f32) (n : Nat) (hn : n < 10)
    (h0 : ∀ (p : Fin 5000) (k : Fin 128), x0 (ix2 p k) = a0 (ix2 (⟨n * 5000 + p.val, by omega⟩ : Fin 50000) k))
    (h1 : ∀ (p : Fin 5000) (k : Fin 32), x1 (ix2 p k) = a1 (ix2 (⟨n * 5000 + p.val, by omega⟩ : Fin 50000) k))
    (h2 : ∀ (q : Fin 32) (k : Fin 128), x2 (ix2 q k) = a2 (ix2 q k))
    (h3 : ∀ (q : Fin 32) (k : Fin 32), x3 (ix2 q k) = a3 (ix2 q k)) (p : Fin 5000) (q : Fin 32) :
    k1_pay1 (F := Ideal) x0 x1 x2 x3 (ix2 p q)
      = Cert.Spec.nodeOut a0 a1 a2 a3 (ix2 (⟨n * 5000 + p.val, by omega⟩ : Fin 50000) q) := by
  rw [pay_apply, Cert.Spec.nodeOut_apply]
  simp only [h0, h1, h2, h3]

/-! ## The windows' blocks as rows of their arrays -/

theorem hz : (![0, 0] : Fin 2 → Nat) = fun _ => 0 := funext fun a => by fin_cases a <;> rfl

/-- The index maps, decided over the grid: the two row-blocked inputs and the output sit at block `(t, 0)`, the two
    weight tables at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 10 := by
  have h := t.isLt
  have hN : cfg1.N = 10 := N_1
  omega

/-- The self-feature block at point `t` is rows `t · 5000 …` of the self features. -/
theorem self_block_apply (c : Dev nD) (t : Fin cfg1.N) (p : Fin 5000) (k : Fin 128) :
    (iblk1 (F := Ideal) V c 0 t : Vec Ideal S5000x128 .f32) (ix2 p k)
      = (V c main_arg1 : S50000x128.Idx → EReal) (ix2 (⟨t.val * 5000 + p.val, by have := point_lt t; omega⟩ : Fin 50000) k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The aggregated-message block at point `t` is rows `t · 5000 …` of the aggregated messages. -/
theorem nbr_block_apply (c : Dev nD) (t : Fin cfg1.N) (p : Fin 5000) (k : Fin 32) :
    (iblk1 (F := Ideal) V c 1 t : Vec Ideal S5000x32 .f32) (ix2 p k)
      = (V c main_v19 : S50000x32.Idx → EReal) (ix2 (⟨t.val * 5000 + p.val, by have := point_lt t; omega⟩ : Fin 50000) k) := by
  obtain ⟨-, -, e2, e3, -⟩ := idx_facts t
  unfold iblk1
  rw [View.read_apply]
  show V c main_v19 _ = V c main_v19 _
  congr 1
  funext a
  apply Fin.ext
  match a with
  | ⟨0, _⟩ => show win1_1.index t (0 : Fin 2) * 5000 + 1 * p.val = t.val * 5000 + p.val; omega
  | ⟨1, _⟩ => show win1_1.index t (1 : Fin 2) * 32 + 1 * k.val = k.val; omega

/-- The self weight table's block at any point is the whole table. -/
theorem wself_block_apply (c : Dev nD) (t : Fin cfg1.N) (q : Fin 32) (k : Fin 128) :
    (iblk1 (F := Ideal) V c 2 t : Vec Ideal S32x128 .f32) (ix2 q k) = (V c main_arg5 : S32x128.Idx → EReal) (ix2 q k) := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_2.index t (0 : Fin 2) * 32 + 1 * q.val = q.val; omega
  | ⟨1, _⟩ => show win1_2.index t (1 : Fin 2) * 128 + 1 * k.val = k.val; omega

/-- The neighbour weight table's block at any point is the whole table. -/
theorem wnbr_block_apply (c : Dev nD) (t : Fin cfg1.N) (q : Fin 32) (k : Fin 32) :
    (iblk1 (F := Ideal) V c 3 t : Vec Ideal S32x32 .f32) (ix2 q k) = (V c main_arg6 : S32x32.Idx → EReal) (ix2 q k) := by
  obtain ⟨-, -, -, -, -, -, e6, e7, -⟩ := idx_facts t
  unfold iblk1
  rw [View.read_apply]
  show V c main_arg6 _ = V c main_arg6 _
  congr 1
  funext a
  apply Fin.ext
  match a with
  | ⟨0, _⟩ => show win1_3.index t (0 : Fin 2) * 32 + 1 * q.val = q.val; omega
  | ⟨1, _⟩ => show win1_3.index t (1 : Fin 2) * 32 + 1 * k.val = k.val; omega

/-- An entry `(p, q)` of the output block at point `t` sits at row `t · 5000 + p`, channel `q` of the output array. -/
theorem out_block_emb (t : Fin cfg1.N) (p : Fin 5000) (q : Fin 32) :
    (((cfg1.win 4).blk t).view.emb (ix2 p q) : S50000x32.Idx)
      = ix2 (⟨t.val * 5000 + p.val, by have := point_lt t; omega⟩ : Fin 50000) q := by
  obtain ⟨-, -, -, -, -, -, -, -, e8, e9⟩ := idx_facts t
  funext a
  apply Fin.ext
  match a with
  | ⟨0, _⟩ => show win1_4.index t (0 : Fin 2) * 5000 + 1 * p.val = t.val * 5000 + p.val; omega
  | ⟨1, _⟩ => show win1_4.index t (1 : Fin 2) * 32 + 1 * q.val = q.val; omega

/-! ## What a point writes back, and the whole array -/

/-- WHAT POINT `t` WRITES BACK is block `t` of the node update of the four arrays as the region finds them. -/
theorem flushed_eq (c : Dev nD) (t : Fin cfg1.N) :
    (dat1 (F := Ideal) V c).flushed 4 t
      = ((cfg1.win 4).blk t).view.read (Elt Ideal)
          (Cert.Spec.nodeOut (V c main_arg1) (V c main_v19) (V c main_arg5) (V c main_arg6)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x32) hz,
    View.ld_unit_zero (S := S32x128) hz, View.ld_unit_zero (S := S32x32) hz]
  show (fun j : S5000x32.Idx => k1_pay1 (F := Ideal) (iblk1 V c 0 t) (iblk1 V c 1 t) (iblk1 V c 2 t) (iblk1 V c 3 t) j)
    = fun j : S5000x32.Idx => Cert.Spec.nodeOut (V c main_arg1) (V c main_v19) (V c main_arg5) (V c main_arg6)
        (((cfg1.win 4).blk t).view.emb j)
  funext j
  obtain ⟨p, q, rfl⟩ : ∃ (p : Fin 5000) (q : Fin 32), j = ix2 p q := ⟨j 0, j 1, eq_ix2 j⟩
  rw [out_block_emb t p q]
  exact block_entry _ _ _ _ _ _ _ _ t.val (point_lt t) (self_block_apply V c t) (nbr_block_apply V c t)
    (wself_block_apply V c t) (wnbr_block_apply V c t) p q

/-- An index of the output array is in point `t`'s block iff each coordinate is in the block's range on its axis. -/
theorem mem_blk (t : Fin cfg1.N) (i : S50000x32.Idx) :
    i ∈ ((cfg1.win 4).blk t).view.set
      ↔ ∀ a : Fin 2, win1_4.index t a * S5000x32.size a ≤ (i a).val
          ∧ (i a).val < win1_4.index t a * S5000x32.size a + S5000x32.size a := by
  show i ∈ ((View.whole main_v20).slice (win1_4.rect t)).set ↔ _
  rw [View.set_slice_whole, Rect.mem_set_unit]
  exact Iff.rfl

/-- Every index of the output array is in some point's block: row `r` is in the block of point `r / 5000`. -/
theorem cover (i : S50000x32.Idx) :
    ∃ t : Fin cfg1.N, (cfg1.win 4).flush t = true ∧ i ∈ ((cfg1.win 4).blk t).view.set := by
  have hi0 : (i 0).val < 50000 := (i 0).isLt
  have hi1 : (i 1).val < 32 := (i 1).isLt
  have hN : cfg1.N = 10 := N_1
  have hlt : (i 0).val / 5000 < cfg1.N := by rw [hN]; omega
  obtain ⟨-, -, -, -, -, -, -, -, e8, e9⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, hlt⟩ (1 : Fin 2) * 32 ≤ (i 1).val
      ∧ (i 1).val < win1_4.index ⟨(i 0).val / 5000, hlt⟩ (1 : Fin 2) * 32 + 32
    rw [e9]
    omega

/-- The node region's output array after its last write-back is `nodeOut` of the region's four input arrays,
    whatever the buffers hold when the region is entered. -/
theorem arr_eq (c : Dev nD) :
    (dat1 (F := Ideal) V c).arrAt 4 cfg1.N
      = Cert.Spec.nodeOut (V c main_arg1) (V c main_v19) (V c main_arg5) (V c main_arg6) :=
  (dat1 (F := Ideal) V c).arrAt_eq_of_cover 4 _ (fun t _ => flushed_eq V c t) cover

end Cert.KernelIdeal.NodeRegion

end
-- ==== Proof.KernelHost.lean ====
/-
  The kernel's program between its regions: each stretch of host operations computes, from whatever
  the buffers held before it, the plain functions of `KernelTerms`; composed with the two regions'
  output arrays this names the program's result as one term of the argument arrays.
-/
import proofs.«426549_j72310069396093_1_alg».proof.Proof.KernelRun
import proofs.«426549_j72310069396093_1_alg».proof.Proof.KernelTerms
import proofs.«426549_j72310069396093_1_alg».proof.Proof.EdgeRegion
import proofs.«426549_j72310069396093_1_alg».proof.Proof.NodeRegion
import Idealize.ShloMosaic.Lib.StableHlo.Run
import Idealize.ShloMosaic.PureOps.Ideal

set_option maxRecDepth 16384

noncomputable section

namespace Cert.KernelIdeal.HostValue

open Cert.KernelIdeal Cert.KernelIdeal.Gen Cert.KernelIdeal.Terms
open Idealize.ShloMosaic Idealize.ShloMosaic.TcCoe Idealize.SL.Sem Idealize.ShloMosaic.StableHlo

variable (W : Valuation τ sig (Elt Ideal))

/-! ## Each host stretch over arbitrary starting contents -/

theorem pre_v1 : StableHlo.after (hostOps0 (F := Ideal)) W (Proc.devRef .tc main_v1) = wRed (W (Proc.devRef .tc main_arg3)) := by
  after_results <;> rfl
theorem pre_v4 : StableHlo.after (hostOps0 (F := Ideal)) W (Proc.devRef .tc main_v4) = bRed (W (Proc.devRef .tc main_arg4)) := by
  after_results <;> rfl
theorem pre_arg2 : StableHlo.after (hostOps0 (F := Ideal)) W (Proc.devRef .tc main_arg2) = W (Proc.devRef .tc main_arg2) := by
  after_results <;> rfl

set_option maxHeartbeats 2000000 in
set_option maxRecDepth 200000 in
theorem mid_v6 : StableHlo.after (hostOps1 (F := Ideal)) W (Proc.devRef .tc main_v6)
    = takeRows (W (Proc.devRef .tc main_arg0)) (W (Proc.devRef .tc main_arg7)) := by
  unfold takeRows srcOk srcCol srcWrap
  after_results_simp
  simp only [TRef.ofBuf, TRef.toBuf, cast_eq]

set_option maxHeartbeats 2000000 in
set_option maxRecDepth 200000 in
theorem mid_v19 : StableHlo.after (hostOps1_1 (F := Ideal)) W (Proc.devRef .tc main_v19)
    = aggOf (mulf (F := Ideal) (W (Proc.devRef .tc main_v6)) (W (Proc.devRef .tc main_v5))) (W (Proc.devRef .tc main_arg8)) := by
  unfold aggOf
  after_results_simp <;> rfl

/-! ## Buffers a stretch does not write keep their contents -/

theorem pre_main_arg0 : StableHlo.after (hostOps0 (F := Ideal)) W (Proc.devRef .tc main_arg0) = W (Proc.devRef .tc main_arg0) := by
  after_results_simp <;> first | rfl | simp only [TRef.ofBuf, TRef.toBuf, cast_eq]
theorem pre_main_arg1 : StableHlo.after (hostOps0 (F := Ideal)) W (Proc.devRef .tc main_arg1) = W (Proc.devRef .tc main_arg1) := by
  after_results_simp <;> first | rfl | simp only [TRef.ofBuf, TRef.toBuf, cast_eq]
theorem pre_main_arg5 : StableHlo.after (hostOps0 (F := Ideal)) W (Proc.devRef .tc main_arg5) = W (Proc.devRef .tc main_arg5) := by
  after_results_simp <;> first | rfl | simp only [TRef.ofBuf, TRef.toBuf, cast_eq]
theorem pre_main_arg6 : StableHlo.after (hostOps0 (F := Ideal)) W (Proc.devRef .tc main_arg6) = W (Proc.devRef .tc main_arg6) := by
  after_results_simp <;> first | rfl | simp only [TRef.ofBuf, TRef.toBuf, cast_eq]
theorem pre_main_arg7 : StableHlo.after (hostOps0 (F := Ideal)) W (Proc.devRef .tc main_arg7) = W (Proc.devRef .tc main_arg7) := by
  after_results_simp <;> first | rfl | simp only [TRef.ofBuf, TRef.toBuf, cast_eq]
theorem pre_main_arg8 : StableHlo.after (hostOps0 (F := Ideal)) W (Proc.devRef .tc main_arg8) = W (Proc.devRef .tc main_arg8) := by
  after_results_simp <;> first | rfl | simp only [TRef.ofBuf, TRef.toBuf, cast_eq]
set_option maxHeartbeats 2000000 in
theorem mid_main_arg1 : StableHlo.after (hostOps1 (F := Ideal)) W (Proc.devRef .tc main_arg1) = W (Proc.devRef .tc main_arg1) := by
  after_results_simp <;> first | rfl | simp only [TRef.ofBuf, TRef.toBuf, cast_eq]
set_option maxHeartbeats 2000000 in
theorem mid_main_arg5 : StableHlo.after (hostOps1 (F := Ideal)) W (Proc.devRef .tc main_arg5) = W (Proc.devRef .tc main_arg5) := by
  after_results_simp <;> first | rfl | simp only [TRef.ofBuf, TRef.toBuf, cast_eq]
set_option maxHeartbeats 2000000 in
theorem mid_main_arg6 : StableHlo.after (hostOps1 (F := Ideal)) W (Proc.devRef .tc main_arg6) = W (Proc.devRef .tc main_arg6) := by
  after_results_simp <;> first | rfl | simp only [TRef.ofBuf, TRef.toBuf, cast_eq]
set_option maxHeartbeats 2000000 in
theorem mid_main_arg8 : StableHlo.after (hostOps1 (F := Ideal)) W (Proc.devRef .tc main_arg8) = W (Proc.devRef .tc main_arg8) := by
  after_results_simp <;> first | rfl | simp only [TRef.ofBuf, TRef.toBuf, cast_eq]
set_option maxHeartbeats 2000000 in
theorem mid_main_v5 : StableHlo.after (hostOps1 (F := Ideal)) W (Proc.devRef .tc main_v5) = W (Proc.devRef .tc main_v5) := by
  after_results_simp <;> first | rfl | simp only [TRef.ofBuf, TRef.toBuf, cast_eq]
set_option maxHeartbeats 2000000 in
theorem mid'_main_arg1 : StableHlo.after (hostOps1_1 (F := Ideal)) W (Proc.devRef .tc main_arg1) = W (Proc.devRef .tc main_arg1) := by
  after_results_simp <;> first | rfl | simp only [TRef.ofBuf, TRef.toBuf, cast_eq]
set_option maxHeartbeats 2000000 in
theorem mid'_main_arg5 : StableHlo.after (hostOps1_1 (F := Ideal)) W (Proc.devRef .tc main_arg5) = W (Proc.devRef .tc main_arg5) := by
  after_results_simp <;> first | rfl | simp only [TRef.ofBuf, TRef.toBuf, cast_eq]
set_option maxHeartbeats 2000000 in
theorem mid'_main_arg6 : StableHlo.after (hostOps1_1 (F := Ideal)) W (Proc.devRef .tc main_arg6) = W (Proc.devRef .tc main_arg6) := by
  after_results_simp <;> first | rfl | simp only [TRef.ofBuf, TRef.toBuf, cast_eq]

/-! ## The program's result as one term of the argument arrays -/

variable (m : (ℓ : Loc nD τ sig) → Buf (Elt Ideal) ℓ) (ρ : Dev nD → PrngReg)

/-- The first region's output array when the second stretch begins: the per-edge linear map of the edge features and
    the pre-summed weight table and bias. -/
theorem edge_out (c : Dev nD) :
    W2 (F := Ideal) m ρ c (Proc.devRef .tc main_v5)
      = Cert.Spec.edgeLin (m ((c : Thread nD τ).loc main_arg2)) (wRed (m ((c : Thread nD τ).loc main_arg3)))
          (bRed (m ((c : Thread nD τ).loc main_arg4))) := by
  have e := W2_arr (F := Ideal) m ρ c 3
  have r := Cert.KernelIdeal.EdgeRegion.arr_eq (V1 (F := Ideal) m ρ) c
  have a2 : V1 (F := Ideal) m ρ c main_arg2 = m ((c : Thread nD τ).loc main_arg2) := pre_arg2 (W0 m ρ c)
  have a3 : V1 (F := Ideal) m ρ c main_v1 = wRed (m ((c : Thread nD τ).loc main_arg3)) := pre_v1 (W0 m ρ c)
  have a4 : V1 (F := Ideal) m ρ c main_v4 = bRed (m ((c : Thread nD τ).loc main_arg4)) := pre_v4 (W0 m ρ c)
  rw [a2, a3, a4] at r
  exact e.trans r

/-- An argument array that no stretch and no region writes is, at the second region's entry, what the launch memory
    holds: here for the three arguments the second region reads. -/
theorem entry_arg1 (c : Dev nD) : V4 (F := Ideal) m ρ c main_arg1 = m ((c : Thread nD τ).loc main_arg1) :=
  ((mid'_main_arg1 (W3 m ρ c)).trans ((mid_main_arg1 (W2 m ρ c)).trans
    ((W2_of_ne m ρ c main_arg1 (by decide)).trans (pre_main_arg1 (W0 m ρ c)))))
theorem entry_arg5 (c : Dev nD) : V4 (F := Ideal) m ρ c main_arg5 = m ((c : Thread nD τ).loc main_arg5) :=
  ((mid'_main_arg5 (W3 m ρ c)).trans ((mid_main_arg5 (W2 m ρ c)).trans
    ((W2_of_ne m ρ c main_arg5 (by decide)).trans (pre_main_arg5 (W0 m ρ c)))))
theorem entry_arg6 (c : Dev nD) : V4 (F := Ideal) m ρ c main_arg6 = m ((c : Thread nD τ).loc main_arg6) :=
  ((mid'_main_arg6 (W3 m ρ c)).trans ((mid_main_arg6 (W2 m ρ c)).trans
    ((W2_of_ne m ρ c main_arg6 (by decide)).trans (pre_main_arg6 (W0 m ρ c)))))

/-- The aggregated messages at the second region's entry. -/
theorem entry_agg (c : Dev nD) :
    V4 (F := Ideal) m ρ c main_v19
      = aggOf (mulf (F := Ideal)
          (takeRows (m ((c : Thread nD τ).loc main_arg0)) (m ((c : Thread nD τ).loc main_arg7)))
          (Cert.Spec.edgeLin (m ((c : Thread nD τ).loc main_arg2)) (wRed (m ((c : Thread nD τ).loc main_arg3)))
            (bRed (m ((c : Thread nD τ).loc main_arg4)))))
        (m ((c : Thread nD τ).loc main_arg8)) := by
  have h19 := mid_v19 (W3 (F := Ideal) m ρ c)
  have h6 : W3 (F := Ideal) m ρ c (Proc.devRef .tc main_v6)
      = takeRows (m ((c : Thread nD τ).loc main_arg0)) (m ((c : Thread nD τ).loc main_arg7)) := by
    have p0 : W2 (F := Ideal) m ρ c (Proc.devRef .tc main_arg0) = m ((c : Thread nD τ).loc main_arg0) :=
      (W2_of_ne m ρ c main_arg0 (by decide)).trans (pre_main_arg0 (W0 m ρ c))
    have p7 : W2 (F := Ideal) m ρ c (Proc.devRef .tc main_arg7) = m ((c : Thread nD τ).loc main_arg7) :=
      (W2_of_ne m ρ c main_arg7 (by decide)).trans (pre_main_arg7 (W0 m ρ c))
    refine (mid_v6 (W2 m ρ c)).trans ?_
    rw [p0, p7]
  have h5 : W3 (F := Ideal) m ρ c (Proc.devRef .tc main_v5) = _ := (mid_main_v5 (W2 m ρ c)).trans (edge_out m ρ c)
  have h8 : W3 (F := Ideal) m ρ c (Proc.devRef .tc main_arg8) = m ((c : Thread nD τ).loc main_arg8) :=
    (mid_main_arg8 (W2 m ρ c)).trans ((W2_of_ne m ρ c main_arg8 (by decide)).trans (pre_main_arg8 (W0 m ρ c)))
  rw [h6, h5, h8] at h19
  exact h19

/-- THE KERNEL'S RESULT: the node update of the self features, the aggregated messages and the two weight tables. -/
theorem result_eq (c : Dev nD) :
    W5 (F := Ideal) m ρ c (Proc.devRef .tc main_v20)
      = Cert.Spec.nodeOut (m ((c : Thread nD τ).loc main_arg1))
          (aggOf (mulf (F := Ideal)
              (takeRows (m ((c : Thread nD τ).loc main_arg0)) (m ((c : Thread nD τ).loc main_arg7)))
              (Cert.Spec.edgeLin (m ((c : Thread nD τ).loc main_arg2)) (wRed (m ((c : Thread nD τ).loc main_arg3)))
                (bRed (m ((c : Thread nD τ).loc main_arg4)))))
            (m ((c : Thread nD τ).loc main_arg8)))
          (m ((c : Thread nD τ).loc main_arg5)) (m ((c : Thread nD τ).loc main_arg6)) := by
  have e := W5_arr (F := Ideal) m ρ c 4
  have r := Cert.KernelIdeal.NodeRegion.arr_eq (V4 (F := Ideal) m ρ) c
  rw [entry_arg1 m ρ c, entry_agg m ρ c, entry_arg5 m ρ c, entry_arg6 m ρ c] at r
  exact e.trans r

end Cert.KernelIdeal.HostValue

end
-- ==== Proof.PreFacts.lean ====
/-
  What the precondition says entry by entry.

  The precondition is a conjunction of eight `all` tests.  Two of its float tests and its integer test are
  used by the proof: every entry of the edge features and of the edge weight table has absolute value
  below +∞, hence is a real number; and every source index `s` satisfies `0 ≤ s` and `s < 50000` as
  signed 32-bit words.
-/
import proofs.«426549_j72310069396093_1_alg».proof.Pre_finite_inputs
import Idealize.ShloMosaic.Lib.ReduceAll
import Idealize.ShloMosaic.Lib.ValueIdx
import Idealize.ShloMosaic.PureOps.Ideal

noncomputable section

namespace Cert.PreFacts

open Cert.Pre_finite_inputs Idealize.ShloMosaic
variable [Facts]
open Facts

/-- The scalar shape has exactly one index. -/
instance : Subsingleton S_.Idx := ⟨fun a b => funext fun d => d.elim0⟩

/-- An extended real whose absolute value `max x (-x)` is strictly below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The f32 word `0x7F800000` denotes +∞. -/
theorem ofBits_inf : Ideal.ofBits .f32 0x7F800000#32 = (⊤ : EReal) := by
  simp [Ideal.ofBits, Ideal.ieee]

/-- The elementwise finiteness test: `|x| < +∞` holds only of a real number. -/
theorem real_of_test (x : EReal)
    (h : FloatOps.cmpf (F := Ideal) CmpFPredicate.olt (FloatOps.hostAbsf (F := Ideal) (φ := .f32) x) (FloatOps.ofBits (F := Ideal) .f32 0x7F800000#32) = 1#1) :
    ∃ r : ℝ, x = (r : EReal) := by
  refine real_of_abs_lt_top x ?_
  have h' : Ideal.cmp CmpFPredicate.olt (max x (-x)) (Ideal.ofBits .f32 0x7F800000#32) = 1#1 := h
  rw [ofBits_inf] at h'
  unfold Ideal.cmp at h'
  revert h'
  by_cases hlt : max x (-x) < ⊤
  · exact fun _ => hlt
  · simp [hlt]

/-- Under the precondition every edge feature and every edge weight is a real number, and every source index lies
    in `[0, 50000)` as a signed word. -/
theorem decode (a0 : FVec Ideal S50000x32 .f32) (a1 : FVec Ideal S50000x128 .f32) (a2 : FVec Ideal S200000x16 .f32)
    (a3 : FVec Ideal S1024x16 .f32) (a4 : FVec Ideal S1024 .f32) (a5 : FVec Ideal S32x128 .f32) (a6 : FVec Ideal S32x32 .f32)
    (a7 a8 : IVec S200000 32)
    (h : fn (F := Ideal) a0 a1 a2 a3 a4 a5 a6 a7 a8 = fun _ => 1#1) :
    (∀ i, ∃ r : ℝ, a2 i = (r : EReal)) ∧ (∀ i, ∃ r : ℝ, a3 i = (r : EReal))
      ∧ ∀ k, IntOp.cmpi CmpIPredicate.sge (a7 k) 0#32 = 1#1 ∧ IntOp.cmpi CmpIPredicate.slt (a7 k) 50000#32 = 1#1 := by
  have e := congrFun h ValueIdx.ix0
  unfold fn fn_part1 fn_part2 at e
  dsimp only at e
  simp only [andi, IntOp.andi_eq_one] at e
  obtain ⟨⟨⟨⟨⟨⟨⟨-, -⟩, h2⟩, h3⟩, -⟩, -⟩, -⟩, h7⟩ := e
  refine ⟨fun i => ?_, fun i => ?_, fun k => ?_⟩
  · have e2 := Host.reduce_andi_all _ _ _ _ _ h2 i
    simp only [cmpf, Host.absf, broadcastInDim, constant] at e2
    exact real_of_test _ e2
  · have e3 := Host.reduce_andi_all _ _ _ _ _ h3 i
    simp only [cmpf, Host.absf, broadcastInDim, constant] at e3
    exact real_of_test _ e3
  · have e7 := Host.reduce_andi_all _ _ _ _ _ h7 k
    simpa only [andi, cmpi, broadcastInDim, constantI, IntOp.andi_eq_one] using e7

end Cert.PreFacts

end
-- ==== Proof.EdgeLaw.lean ====
/-
  Summing the edge weights before or after the contraction.

  The reference forms, per edge e, all 1024 values `Σ_d x[e, d] · W[k, d] + b[k]`, regroups k = 32 i + j
  and sums over i.  The kernel first sums the weight table and the bias over i and then contracts:
  `Σ_d x[e, d] · (Σ_i W[32 i + j, d]) + Σ_i b[32 i + j]`.  The two agree because a finite sum of sums
  may be taken in either order and a real factor distributes over a finite sum of reals; on the extended
  reals distributivity can fail at infinities, so the edge features and the weights are assumed real.
-/
import proofs.«426549_j72310069396093_1_alg».proof.Proof.Spec
import proofs.«426549_j72310069396093_1_alg».proof.Proof.KernelTerms
import proofs.«426549_j72310069396093_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.EdgeLaw

open Idealize.ShloMosaic Idealize.ShloMosaic.ValueIdx

/-! ## The law on the reals -/

/-- A finite sum of reals, seen in the extended reals, is the sum of its terms seen there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracting against the group-summed weights and adding the group-summed bias is summing, over the groups, the
    biased contractions: a real factor distributes over the inner sum, the two sums change places, and the bias terms
    (any extended reals) are only regrouped. -/
theorem reduce_then_contract (f2 : Fin 16 → ℝ) (f3 : Fin 32 → Fin 16 → ℝ) (b : Fin 32 → EReal) :
    (∑ d : Fin 16, (f2 d : EReal) * ∑ i : Fin 32, (f3 i d : EReal)) + ∑ i : Fin 32, b i
      = ∑ i : Fin 32, ((∑ d : Fin 16, (f2 d : EReal) * (f3 i d : EReal)) + b i) := by
  rw [Finset.sum_add_distrib]
  refine congrArg (· + _) ?_
  simp only [← coe_sum, ← EReal.coe_mul]
  refine congrArg Real.toEReal ?_
  simp only [Finset.mul_sum]
  exact Finset.sum_comm

/-! ## The regrouped channel index -/

/-- Channel `32 i + j` of the 1024: member `j` of group `i`. -/
def grp (i j : Fin 32) : Fin 1024 := ⟨i.val * 32 + j.val, by have := i.isLt; have := j.isLt; omega⟩

/-! ## The kernel's two pre-summed tables at an index -/

/-- Entry (j, d) of the group-summed weight table is `Σ_i W[32 i + j, d]` (the sum starts from the zero word). -/
theorem wRed_apply (x3 : FVec Ideal Cert.KernelIdeal.S1024x16 .f32) (j : Fin 32) (d : Fin 16) :
    Cert.KernelIdeal.Terms.wRed x3 (ix2 j d) = ∑ i : Fin 32, x3 (ix2 (grp i j) d) := by
  unfold Cert.KernelIdeal.Terms.wRed
  simp only [Host.reduceAdd, Ideal.hostReduceAdd_def]
  rw [Ideal.hostReduceAdd_single _ (by decide)]
  rw [show constant (F := Ideal) Cert.KernelIdeal.S_ .f32 0x00000000#32 (Shape.Idx.first Cert.KernelIdeal.Gen.h_S_) = 0 from Ideal.ofBits_zero_f32, zero_add]
  refine Finset.sum_congr rfl fun i _ => ?_
  refine shapeCast_apply x3 _ _ (ix2 (grp i j) d) ?_
  rw [Shape.rowMajor_val_two, Shape.rowMajor_val_three]
  rfl

/-- Entry (0, j) of the group-summed bias row is `Σ_i b[32 i + j]`. -/
theorem bRed_apply (x4 : FVec Ideal Cert.KernelIdeal.S1024 .f32) (u : Fin 1) (j : Fin 32) :
    Cert.KernelIdeal.Terms.bRed x4 (ix2 u j) = ∑ i : Fin 32, x4 (ix1 (grp i j)) := by
  unfold Cert.KernelIdeal.Terms.bRed
  refine (shapeCast_a_1a_apply _ _ u j).trans ?_
  simp only [Host.reduceAdd, Ideal.hostReduceAdd_def]
  rw [Ideal.hostReduceAdd_single _ (by decide)]
  rw [show constant (F := Ideal) Cert.KernelIdeal.S_ .f32 0x00000000#32 (Shape.Idx.first Cert.KernelIdeal.Gen.h_S_) = 0 from Ideal.ofBits_zero_f32, zero_add]
  refine Finset.sum_congr rfl fun i _ => ?_
  refine shapeCast_apply x4 _ _ (ix1 (grp i j)) ?_
  rw [Shape.rowMajor_val_one, Shape.rowMajor_val_two]
  rfl

/-! ## The reference's value at an index -/

open Cert.ReferenceIdeal.Read in
/-- The reference at (e, j): over the 32 groups `k`, the contraction of edge `e` with weight row `32 k + j` plus that
    channel's bias (the 1024-channel product is regrouped as 32 × 32 and summed over its first group axis from zero). -/
theorem ref_apply (x2 : FVec Ideal Cert.KernelIdeal.S200000x16 .f32) (x3 : FVec Ideal Cert.KernelIdeal.S1024x16 .f32)
    (x4 : FVec Ideal Cert.KernelIdeal.S1024 .f32) (e : Fin 200000) (j : Fin 32) :
    val_main_v13 (F := Ideal) x2 x3 x4 (ix2 e j)
      = ∑ k : Fin 32, ((∑ d : Fin 16, x2 (ix2 e d) * x3 (ix2 (grp k j) d)) + x4 (ix1 (grp k j))) := by
  rw [val_main_v13_apply]
  rw [show val_main_cst (F := Ideal) (Shape.Idx.first Cert.ReferenceIdeal.Gen.h_S_) = 0 from Ideal.ofBits_zero_f32, zero_add]
  refine Finset.sum_congr rfl fun k _ => ?_
  rw [val_main_v5_apply, val_main_v4_apply, val_main_v1_apply, val_main_v3_apply, val_main_v2_apply]
  simp only [val_main_v0_apply]
  have he : e.val < 200000 := e.isLt
  have hj : j.val < 32 := j.isLt
  have hk : k.val < 32 := k.isLt
  have el : ∀ d : Fin 16, lidx_main_v1 (idx_main_v5 (idx_main_v13 (ix2 e j) k)) d = ix2 e d := fun d =>
    funext fun a => Fin.ext (by
      match a with
      | ⟨0, _⟩ => show ((e.val * 32 + k.val) * 32 + j.val) / 1024 = e.val; omega
      | ⟨1, _⟩ => rfl)
  have er : ∀ d : Fin 16, idx_main_v0 (ridx_main_v1 (idx_main_v5 (idx_main_v13 (ix2 e j) k)) d) = ix2 (grp k j) d := fun d =>
    funext fun a => Fin.ext (by
      match a with
      | ⟨0, _⟩ => show ((e.val * 32 + k.val) * 32 + j.val) % 1024 = k.val * 32 + j.val; omega
      | ⟨1, _⟩ => rfl)
  have eb : idx_main_v2 (idx_main_v3 (idx_main_v5 (idx_main_v13 (ix2 e j) k))) = ix1 (grp k j) :=
    funext fun a => Fin.ext (by
      match a with
      | ⟨0, _⟩ => show ((e.val * 32 + k.val) * 32 + j.val) % 1024 = k.val * 32 + j.val; omega)
  simp only [el, er, eb]
  rfl

/-! ## The two sides agree -/

/-- With real edge features `x2` and real edge weights `x3`, the per-edge linear map of the pre-summed weight table
    and bias is the reference's sum over the 32 groups of the biased 1024-channel product. -/
theorem edgeLin_reduced (x2 : FVec Ideal Cert.KernelIdeal.S200000x16 .f32) (x3 : FVec Ideal Cert.KernelIdeal.S1024x16 .f32)
    (x4 : FVec Ideal Cert.KernelIdeal.S1024 .f32)
    (h2 : ∀ i, ∃ r : ℝ, x2 i = (r : EReal)) (h3 : ∀ i, ∃ r : ℝ, x3 i = (r : EReal)) :
    Cert.Spec.edgeLin x2 (Cert.KernelIdeal.Terms.wRed x3) (Cert.KernelIdeal.Terms.bRed x4)
      = Cert.ReferenceIdeal.Read.val_main_v13 (F := Ideal) x2 x3 x4 := by
  choose f2 hf2 using h2
  choose f3 hf3 using h3
  funext i
  obtain ⟨e, j, rfl⟩ : ∃ (e : Fin 200000) (j : Fin 32), i = ix2 e j := ⟨i 0, i 1, eq_ix2 i⟩
  rw [Cert.Spec.edgeLin_apply, bRed_apply, ref_apply]
  simp only [wRed_apply, hf2, hf3]
  exact reduce_then_contract (fun d => f2 (ix2 e d)) (fun i d => f3 (ix2 (grp i j) d)) (fun i => x4 (ix1 (grp i j)))

end Cert.EdgeLaw

end
-- ==== Proof.NodeLaw.lean ====
/-
  The node update as the reference writes it.

  The reference computes `max (h · Wsᵀ + a · Wnᵀ) 0` with two whole matrix products against transposed
  weight tables and a maximum against a broadcast zero; entry by entry that is
  `max (Σ_k h[n, k] · ws[o, k] + Σ_k a[n, k] · wn[o, k]) 0`, the specification's `nodeOut`.
-/
import proofs.«426549_j72310069396093_1_alg».proof.Proof.Spec
import proofs.«426549_j72310069396093_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.NodeLaw

open Cert.ReferenceIdeal Cert.ReferenceIdeal.Gen
open Idealize.ShloMosaic Idealize.ShloMosaic.ValueIdx

/-! ## The two matrix products at an index

Each product contracts axis 1 of its left operand with axis 0 of its right one: at output index `i` and
contraction index `k` the left operand is read at `(i 0, k)` and the right one at `(k, i 1)`. -/

/-- The self-feature product at an index, for any operands: `Σ_k x[i 0, k] · y[k, i 1]` over the 128 features. -/
theorem dot_self_apply (x : FVec Ideal S50000x128 .f32) (y : FVec Ideal S128x32 .f32) (i : S50000x32.Idx) :
    Host.dotGeneral (F := Ideal) dot_S50000x128_S128x32_S50000x32_1_0_0_1_n_n none x y i
      = ∑ k : Fin 128, x (Read.lidx_main_v28 i k) * y (Read.ridx_main_v28 i k) := by
  simp only [Host.dotGeneral]
  rw [Ideal.dotGeneral_apply, ← Equiv.sum_comp (ValueIdx.contrEquiv1 dot_S50000x128_S128x32_S50000x32_1_0_0_1_n_n 128 rfl rfl).symm]
  refine Finset.sum_congr rfl fun k _ => ?_
  have hk := ValueIdx.contrEquiv1_symm_val dot_S50000x128_S128x32_S50000x32_1_0_0_1_n_n 128 rfl rfl k
  have el : dot_S50000x128_S128x32_S50000x32_1_0_0_1_n_n.lhsIdx i ((ValueIdx.contrEquiv1 dot_S50000x128_S128x32_S50000x32_1_0_0_1_n_n 128 rfl rfl).symm k) = Read.lidx_main_v28 i k := funext fun a => Fin.ext (by
    match a with
    | ⟨0, _⟩ => exact Read.lhs_main_v28_0 _ _
    | ⟨1, _⟩ => exact (Read.lhs_main_v28_1 _ _).trans hk)
  have er : dot_S50000x128_S128x32_S50000x32_1_0_0_1_n_n.rhsIdx i ((ValueIdx.contrEquiv1 dot_S50000x128_S128x32_S50000x32_1_0_0_1_n_n 128 rfl rfl).symm k) = Read.ridx_main_v28 i k := funext fun a => Fin.ext (by
    match a with
    | ⟨0, _⟩ => exact (Read.rhs_main_v28_0 _ _).trans hk
    | ⟨1, _⟩ => exact Read.rhs_main_v28_1 _ _)
  rw [el, er]

/-- The aggregated-message product at an index, for any operands: `Σ_k x[i 0, k] · y[k, i 1]` over the 32 channels. -/
theorem dot_nbr_apply (x : FVec Ideal S50000x32 .f32) (y : FVec Ideal S32x32 .f32) (i : S50000x32.Idx) :
    Host.dotGeneral (F := Ideal) dot_S50000x32_S32x32_S50000x32_1_0_0_1_n_n none x y i
      = ∑ k : Fin 32, x (Read.lidx_main_v30 i k) * y (Read.ridx_main_v30 i k) := by
  simp only [Host.dotGeneral]
  rw [Ideal.dotGeneral_apply, ← Equiv.sum_comp (ValueIdx.contrEquiv1 dot_S50000x32_S32x32_S50000x32_1_0_0_1_n_n 32 rfl rfl).symm]
  refine Finset.sum_congr rfl fun k _ => ?_
  have hk := ValueIdx.contrEquiv1_symm_val dot_S50000x32_S32x32_S50000x32_1_0_0_1_n_n 32 rfl rfl k
  have el : dot_S50000x32_S32x32_S50000x32_1_0_0_1_n_n.lhsIdx i ((ValueIdx.contrEquiv1 dot_S50000x32_S32x32_S50000x32_1_0_0_1_n_n 32 rfl rfl).symm k) = Read.lidx_main_v30 i k := funext fun a => Fin.ext (by
    match a with
    | ⟨0, _⟩ => exact Read.lhs_main_v30_0 _ _
    | ⟨1, _⟩ => exact (Read.lhs_main_v30_1 _ _).trans hk)
  have er : dot_S50000x32_S32x32_S50000x32_1_0_0_1_n_n.rhsIdx i ((ValueIdx.contrEquiv1 dot_S50000x32_S32x32_S50000x32_1_0_0_1_n_n 32 rfl rfl).symm k) = Read.ridx_main_v30 i k := funext fun a => Fin.ext (by
    match a with
    | ⟨0, _⟩ => exact (Read.rhs_main_v30_0 _ _).trans hk
    | ⟨1, _⟩ => exact Read.rhs_main_v30_1 _ _)
  rw [el, er]

/-- The transposed self weight table at `(k, o)` is the table at `(o, k)`. -/
theorem wself_transpose_apply (x5 : FVec Ideal S32x128 .f32) (i : S50000x32.Idx) (o : Fin 32) (ho : (i 1).val = o.val) (k : Fin 128) :
    transpose S128x32 [1, 0] x5 transposes_S32x128_S128x32_1_0 (Read.ridx_main_v28 i k) = x5 (ix2 o k) :=
  transpose_apply [1, 0] x5 transposes_S32x128_S128x32_1_0 (Read.ridx_main_v28 i k) (ix2 o k) (fun b => match b with
    | ⟨0, _⟩ => rfl
    | ⟨1, _⟩ => ho.symm)

/-- The transposed neighbour weight table at `(k, o)` is the table at `(o, k)`. -/
theorem wnbr_transpose_apply (x6 : FVec Ideal S32x32 .f32) (i : S50000x32.Idx) (o : Fin 32) (ho : (i 1).val = o.val) (k : Fin 32) :
    transpose S32x32 [1, 0] x6 transposes_S32x32_S32x32_1_0 (Read.ridx_main_v30 i k) = x6 (ix2 o k) :=
  transpose_apply [1, 0] x6 transposes_S32x32_S32x32_1_0 (Read.ridx_main_v30 i k) (ix2 o k) (fun b => match b with
    | ⟨0, _⟩ => rfl
    | ⟨1, _⟩ => ho.symm)

/-- The broadcast scalar zero reads `0` at every index. -/
theorem zero_splat_apply (i : S50000x32.Idx) :
    broadcastInDim S50000x32 ![] bcast_S_S50000x32 (constant (F := Ideal) S_ .f32 0x00000000#32) i = 0 := by
  refine (broadcastInDim_apply _ bcast_S_S50000x32 _ i (fun a => a.elim0) (fun a => a.elim0)).trans ?_
  exact Ideal.ofBits_zero_f32

/-- For any aggregated messages `a`, the specification's node update is the reference's term: the maximum with zero
    of the sum of the two matrix products against the transposed weight tables. -/
theorem nodeOut_eq (x1 : FVec Ideal S50000x128 .f32) (a : FVec Ideal S50000x32 .f32) (x5 : FVec Ideal S32x128 .f32)
    (x6 : FVec Ideal S32x32 .f32) :
    Cert.Spec.nodeOut x1 a x5 x6
      = maximumf (F := Ideal)
          (addf (F := Ideal)
            (Host.dotGeneral (F := Ideal) dot_S50000x128_S128x32_S50000x32_1_0_0_1_n_n none x1
              (transpose S128x32 [1, 0] x5 transposes_S32x128_S128x32_1_0))
            (Host.dotGeneral (F := Ideal) dot_S50000x32_S32x32_S50000x32_1_0_0_1_n_n none a
              (transpose S32x32 [1, 0] x6 transposes_S32x32_S32x32_1_0)))
          (broadcastInDim S50000x32 ![] bcast_S_S50000x32 (constant (F := Ideal) S_ .f32 0x00000000#32)) := by
  funext i
  obtain ⟨n, o, rfl⟩ : ∃ (n : Fin 50000) (o : Fin 32), i = ix2 n o := ⟨i 0, i 1, eq_ix2 i⟩
  rw [Cert.Spec.nodeOut_apply, maximumf_apply, addf_apply, dot_self_apply, dot_nbr_apply, zero_splat_apply]
  have hl : ∀ k : Fin 128, Read.lidx_main_v28 (ix2 n o) k = ix2 n k := fun k =>
    funext fun a => Fin.ext (by match a with | ⟨0, _⟩ => rfl | ⟨1, _⟩ => rfl)
  have hl' : ∀ k : Fin 32, Read.lidx_main_v30 (ix2 n o) k = ix2 n k := fun k =>
    funext fun a => Fin.ext (by match a with | ⟨0, _⟩ => rfl | ⟨1, _⟩ => rfl)
  simp only [hl, hl', wself_transpose_apply x5 (ix2 n o) o rfl, wnbr_transpose_apply x6 (ix2 n o) o rfl]

end Cert.NodeLaw

end
-- ==== Proof.TakeLaw.lean ====
/-
  Taking rows with every index in range.

  The kernel's row take wraps a negative index by the table's height, tests the wrapped index against
  0 … 49999 and replaces a row whose test fails by a fill word.  When every source index `s` satisfies
  `0 ≤ s < 50000` (signed), no index is negative, so none is wrapped, every test passes, and the take is
  the plain gather of the table's rows at the (unchanged) indices.
-/
import proofs.«426549_j72310069396093_1_alg».proof.Proof.KernelTerms
import Idealize.ShloMosaic.Lib.ReduceAll
import Idealize.ShloMosaic.Lib.ValueIdx

noncomputable section

namespace Cert.TakeLaw

open Cert.KernelIdeal Cert.KernelIdeal.Gen Cert.KernelIdeal.Terms
open Idealize.ShloMosaic

theorem ofBool_eq_one (b : Bool) : BitVec.ofBool b = 1#1 ↔ b = true := by cases b <;> decide

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 by decide]
    exact foldl_andi_one f l fun n hn => h n (List.mem_cons_of_mem _ hn)

/-- An `all` over an array of ones, started at one, is one. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun n _ => hx n

/-- A signed word `w` with `0 ≤ w < 50000` is not negative and is at most 49999. -/
theorem word_in_range (w : BitVec 32) (h0 : IntOp.cmpi .sge w 0#32 = 1#1) (h1 : IntOp.cmpi .slt w 50000#32 = 1#1) :
    IntOp.cmpi .slt w 0#32 = 0#1 ∧ IntOp.cmpi .sle w 49999#32 = 1#1 := by
  unfold IntOp.cmpi at h0 h1 ⊢
  rw [ofBool_eq_one] at h0 h1
  simp only [BitVec.slt, BitVec.sle, decide_eq_true_eq] at h0 h1
  have e0 : (0#32 : BitVec 32).toInt = 0 := by decide
  have e1 : (50000#32 : BitVec 32).toInt = 50000 := by decide
  have e2 : (49999#32 : BitVec 32).toInt = 49999 := by decide
  rw [e0] at h0
  rw [e1] at h1
  constructor
  · have : w.slt 0#32 = false := by
      simp only [BitVec.slt, e0]
      exact decide_eq_false (by omega)
    simp only [this]; rfl
  · have : w.sle 49999#32 = true := by
      simp only [BitVec.sle, e2]
      exact decide_eq_true (by omega)
    simp only [this]; rfl

variable (x7 : IVec S200000 32)
  (hx : ∀ k, IntOp.cmpi CmpIPredicate.sge (x7 k) 0#32 = 1#1 ∧ IntOp.cmpi CmpIPredicate.slt (x7 k) 50000#32 = 1#1)

include hx

/-- No index is wrapped. -/
theorem srcWrap_apply (k : S200000.Idx) : srcWrap x7 k = x7 k := by
  obtain ⟨h0, h1⟩ := hx k
  obtain ⟨hlt, -⟩ := word_in_range _ h0 h1
  unfold srcWrap
  simp only [select, Scalar.select, cmpi, broadcastInDim, constantI, hlt]
  exact if_neg (by decide)

/-- Every entry of the index column is some source index, unchanged, hence passes both range tests. -/
theorem srcCol_tests (i : S200000x1.Idx) :
    IntOp.cmpi CmpIPredicate.sge (srcCol x7 i) 0#32 = 1#1 ∧ IntOp.cmpi CmpIPredicate.sle (srcCol x7 i) 49999#32 = 1#1 := by
  obtain ⟨k, hk⟩ : ∃ k, srcCol x7 i = srcWrap x7 k := ⟨_, rfl⟩
  rw [hk, srcWrap_apply x7 hx k]
  obtain ⟨h0, h1⟩ := hx k
  exact ⟨h0, (word_in_range _ h0 h1).2⟩

/-- Every edge's range test passes. -/
theorem srcOk_apply (j : S200000.Idx) : srcOk x7 j = 1#1 := by
  unfold srcOk
  refine reduce_andi_one _ _ _ _ j rfl fun i => ?_
  obtain ⟨a, b⟩ := srcCol_tests x7 hx i
  simp only [andi, cmpi, broadcastInDim, constantI]
  rw [a, b]
  decide

/-- With every source index in range, the kernel's row take is the plain gather at the index column. -/
theorem takeRows_eq (x0 : FVec Ideal S50000x32 .f32) :
    takeRows x0 x7 = Host.gather gather_S50000x32_S200000x1_S200000x32_1_0_n_n_0_1_132 x0 (srcCol x7) := by
  funext i
  obtain ⟨j, hj⟩ : ∃ j, broadcastInDim S200000x32 ![0] bcast_S200000_S200000x32_0 (srcOk x7) i = srcOk x7 j := ⟨_, rfl⟩
  unfold takeRows
  simp only [select, Scalar.select]
  rw [hj, srcOk_apply x7 hx j]
  exact if_pos rfl

end Cert.TakeLaw

end
-- ==== Proof.Bridge.lean ====
/-
  The kernel's result term is the reference's.

  Both programs end in the node update of the same self features and weight tables; what differs is how
  the aggregated messages are reached.  Under the precondition the kernel's row take is the plain gather
  (`TakeLaw`), the kernel's per-edge linear map of pre-summed weights is the reference's sum over groups
  (`EdgeLaw`), and from there on both apply the same scatter-adds, clamp and division to the same
  arrays; the node update itself is the reference's two matrix products and maximum with zero (`NodeLaw`).
-/
import proofs.«426549_j72310069396093_1_alg».proof.Proof.Spec
import proofs.«426549_j72310069396093_1_alg».proof.Proof.KernelTerms
import proofs.«426549_j72310069396093_1_alg».proof.Proof.EdgeLaw
import proofs.«426549_j72310069396093_1_alg».proof.Proof.NodeLaw
import proofs.«426549_j72310069396093_1_alg».proof.Proof.TakeLaw
import proofs.«426549_j72310069396093_1_alg».proof.Proof.Gen.ReferenceIdeal.Read

set_option maxRecDepth 16384

noncomputable section

namespace Cert.Bridge

open Idealize.ShloMosaic
open Cert.KernelIdeal.Terms

/-- From the gathered rows and the per-edge sums on, the kernel's host operations are the reference's: the same
    product, scatter-adds, clamp and division of the same arrays. -/
theorem agg_eq (x0 : FVec Ideal Cert.KernelIdeal.S50000x32 .f32) (x2 : FVec Ideal Cert.KernelIdeal.S200000x16 .f32)
    (x3 : FVec Ideal Cert.KernelIdeal.S1024x16 .f32) (x4 : FVec Ideal Cert.KernelIdeal.S1024 .f32)
    (x7 x8 : IVec Cert.KernelIdeal.S200000 32) :
    aggOf (mulf (F := Ideal)
        (Host.gather Cert.KernelIdeal.gather_S50000x32_S200000x1_S200000x32_1_0_n_n_0_1_132 x0 (srcCol x7))
        (Cert.ReferenceIdeal.Read.val_main_v13 (F := Ideal) x2 x3 x4)) x8
      = Cert.ReferenceIdeal.Read.val_main_v26 (F := Ideal) x0 x2 x3 x4 x7 x8 := rfl

/-- The kernel's result term equals the reference's, for real edge features and edge weights and in-range source
    indices. -/
theorem result_eq (x0 : FVec Ideal Cert.KernelIdeal.S50000x32 .f32) (x1 : FVec Ideal Cert.KernelIdeal.S50000x128 .f32)
    (x2 : FVec Ideal Cert.KernelIdeal.S200000x16 .f32) (x3 : FVec Ideal Cert.KernelIdeal.S1024x16 .f32)
    (x4 : FVec Ideal Cert.KernelIdeal.S1024 .f32) (x5 : FVec Ideal Cert.KernelIdeal.S32x128 .f32)
    (x6 : FVec Ideal Cert.KernelIdeal.S32x32 .f32) (x7 x8 : IVec Cert.KernelIdeal.S200000 32)
    (h2 : ∀ i, ∃ r : ℝ, x2 i = (r : EReal)) (h3 : ∀ i, ∃ r : ℝ, x3 i = (r : EReal))
    (hx : ∀ k, IntOp.cmpi CmpIPredicate.sge (x7 k) 0#32 = 1#1 ∧ IntOp.cmpi CmpIPredicate.slt (x7 k) 50000#32 = 1#1) :
    Cert.Spec.nodeOut x1
        (aggOf (mulf (F := Ideal) (takeRows x0 x7) (Cert.Spec.edgeLin x2 (wRed x3) (bRed x4))) x8) x5 x6
      = Cert.ReferenceIdeal.Read.val_main_v32 (F := Ideal) x0 x1 x2 x3 x4 x5 x6 x7 x8 := by
  rw [Cert.EdgeLaw.edgeLin_reduced x2 x3 x4 h2 h3, Cert.TakeLaw.takeRows_eq x7 hx x0, agg_eq,
    Cert.NodeLaw.nodeOut_eq]
  rfl

end Cert.Bridge

end
-- ==== Proof.lean ====
/-
  An edge-conditioned message-passing layer: the kernel against its reference, over the extended reals.

  Both programs compute, for nodes n and channels o,
    z[n, o] = max (Σ_k h_self[n, k] · W_self[o, k] + Σ_k agg[n, k] · W_neigh[o, k]) 0,
  where agg is the destination-wise sum of the messages  h_neigh[src[e], j] · s[e, j]  divided by the
  in-degree clamped below at one, and  s[e, j] = Σ_i (Σ_d x[e, d] · W_edge[32 i + j, d] + b_edge[32 i + j]).
  The kernel sums W_edge and b_edge over i first and then contracts with the edge features x in a gridded
  region; it takes the neighbour rows with an explicit range test and a fill word; and it computes z in a
  second gridded region.  The reference does everything with whole-array operations.

  The two agree where the precondition holds: every float input finite (used for the edge features and the
  edge weights, so that a factor distributes over a sum) and every source index in [0, 50000) (so that the
  kernel's range test never fires and its take is the reference's gather).  The frames are the generated
  ones; the value proof names the kernel's result array through its two regions (`KernelHost`) and shows
  that term equal to the reference's (`Bridge`).
-/
import proofs.«426549_j72310069396093_1_alg».proof.Defs
import proofs.«426549_j72310069396093_1_alg».proof.Proof.Gen.Kernel
import proofs.«426549_j72310069396093_1_alg».proof.Proof.Gen.Kernel.Skeleton
import proofs.«426549_j72310069396093_1_alg».proof.Proof.Gen.Kernel.Launch
import proofs.«426549_j72310069396093_1_alg».proof.Proof.Gen.Kernel.Points
import proofs.«426549_j72310069396093_1_alg».proof.Proof.Gen.Kernel.Frame
import proofs.«426549_j72310069396093_1_alg».proof.Proof.Gen.KernelIdeal
import proofs.«426549_j72310069396093_1_alg».proof.Proof.Gen.KernelIdeal.Skeleton
import proofs.«426549_j72310069396093_1_alg».proof.Proof.Gen.KernelIdeal.Launch
import proofs.«426549_j72310069396093_1_alg».proof.Proof.Gen.KernelIdeal.Points
import proofs.«426549_j72310069396093_1_alg».proof.Proof.Gen.KernelIdeal.Frame
import proofs.«426549_j72310069396093_1_alg».proof.Proof.Gen.ReferenceIdeal
import proofs.«426549_j72310069396093_1_alg».proof.Proof.Gen.Pre_finite_inputs
import proofs.«426549_j72310069396093_1_alg».proof.Proof.Gen.ReferenceIdeal.Run
import proofs.«426549_j72310069396093_1_alg».proof.Proof.Gen.ReferenceIdeal.Read
import proofs.«426549_j72310069396093_1_alg».proof.Proof.KernelHost
import proofs.«426549_j72310069396093_1_alg».proof.Proof.PreFacts
import proofs.«426549_j72310069396093_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both idealized programs end with the reference's result term of
    those arguments in their result arrays. -/
theorem algebraic : Cert.algebraic_KernelIdeal_ReferenceIdeal := by
  intro m ρ m' ρ' hpre hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Run.run_result (F := Ideal) m ρ)
    obtain ⟨h2, h3, hx⟩ := Cert.PreFacts.decode _ _ _ _ _ _ _ _ _ (hpre c)
    exact (Cert.KernelIdeal.HostValue.result_eq m ρ c).trans (Cert.Bridge.result_eq _ _ _ _ _ _ _ _ _ h2 h3 hx)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [a0, a1, a2, a3, a4, a5, a6, a7, a8]
    exact Cert.ReferenceIdeal.Read.val_main_v32_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
